-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S16x1024x1024 : Shape := ⟨3, ![16, 1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel

variable [Facts]

def fn {F : FTy → Type} [FloatOps F] (main_arg0 : IVec S16x1024x1024 32) (main_arg1 : IVec S16x1024x1024 32) : IVec S_ 1 :=
  let main_c : IVec S_ 32 := constantI S_ 32 0#32
  let main_v0 : IVec S16x1024x1024 32 := broadcastInDim S16x1024x1024 ![] bcast_S_S16x1024x1024 main_c
  let main_v1 : IVec S16x1024x1024 1 := cmpi .sge main_arg0 main_v0
  let main_c_0 : IVec S_ 1 := constantI S_ 1 1#1
  let main_v2 : IVec S_ 1 := (fun x v => Host.reduce IntOp.andi x v reducesTo_S16x1024x1024_S_d0_1_2 h_S_) main_v1 main_c_0
  let main_c_1 : IVec S_ 32 := constantI S_ 32 0#32
  let main_v3 : IVec S16x1024x1024 32 := broadcastInDim S16x1024x1024 ![] bcast_S_S16x1024x1024 main_c_1
  let main_v4 : IVec S16x1024x1024 1 := cmpi .sge main_arg1 main_v3
  let main_c_2 : IVec S_ 1 := constantI S_ 1 1#1
  let main_v5 : IVec S_ 1 := (fun x v => Host.reduce IntOp.andi x v reducesTo_S16x1024x1024_S_d0_1_2 h_S_) main_v4 main_c_2
  let main_v6 : IVec S_ 1 := andi main_v2 main_v5
  main_v6
-- ==== Kernel.lean ====
abbrev S16x1024x1024 : Shape := ⟨3, ![16, 1024, 1024]⟩
abbrev S2x3x128 : Shape := ⟨3, ![2, 3, 128]⟩
abbrev S2x1024x1024 : Shape := ⟨3, ![2, 1024, 1024]⟩
abbrev S1x3x128 : Shape := ⟨3, ![1, 3, 128]⟩
abbrev S1x128 : Shape := ⟨2, ![1, 128]⟩
abbrev S1x2x1024x1024 : Shape := ⟨4, ![1, 2, 1024, 1024]⟩
abbrev S1 : Shape := ⟨1, ![1]⟩
abbrev S1x1x1x1 : Shape := ⟨4, ![1, 1, 1, 1]⟩
abbrev S1x1x128 : Shape := ⟨3, ![1, 1, 128]⟩
abbrev S128 : Shape := ⟨1, ![128]⟩
abbrev S_ : Shape := ⟨0, ![]⟩
abbrev S3x128 : Shape := ⟨2, ![3, 128]⟩
abbrev S1x19 : Shape := ⟨2, ![1, 19]⟩
abbrev S19 : Shape := ⟨1, ![19]⟩

abbrev nBuf : Space → Nat
  | .hbm => 29
  | .vmem => 7
  | .smem => 0
  | _ => 0

abbrev bufTy : (tb : Table) → Fin (tcTables nBuf tb) → BufTy
  | .hbm, ⟨0, _⟩ => ⟨S16x1024x1024, .i32⟩
  | .hbm, ⟨1, _⟩ => ⟨S16x1024x1024, .i32⟩
  | .hbm, ⟨2, _⟩ => ⟨S2x3x128, .f32⟩
  | .hbm, ⟨3, _⟩ => ⟨S_, .f32⟩
  | .hbm, ⟨4, _⟩ => ⟨S3x128, .f32⟩
  | .hbm, ⟨5, _⟩ => ⟨S1x19, .f32⟩
  | .hbm, ⟨6, _⟩ => ⟨S19, .f32⟩
  | .hbm, ⟨7, _⟩ => ⟨S1x19, .f32⟩
  | .hbm, ⟨8, _⟩ => ⟨S19, .f32⟩
  | .hbm, ⟨9, _⟩ => ⟨S1x19, .f32⟩
  | .hbm, ⟨10, _⟩ => ⟨S19, .f32⟩
  | .hbm, ⟨11, _⟩ => ⟨S19, .f32⟩
  | .hbm, ⟨12, _⟩ => ⟨S19, .f32⟩
  | .hbm, ⟨13, _⟩ => ⟨S_, .f32⟩
  | .hbm, ⟨14, _⟩ => ⟨S19, .f32⟩
  | .hbm, ⟨15, _⟩ => ⟨S19, .f32⟩
  | .hbm, ⟨16, _⟩ => ⟨S_, .f32⟩
  | .hbm, ⟨17, _⟩ => ⟨S19, .f32⟩
  | .hbm, ⟨18, _⟩ => ⟨S19, .f32⟩
  | .hbm, ⟨19, _⟩ => ⟨S_, .f32⟩
  | .hbm, ⟨20, _⟩ => ⟨S19, .f32⟩
  | .hbm, ⟨21, _⟩ => ⟨S19, .f32⟩
  | .hbm, ⟨22, _⟩ => ⟨S19, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S2x1024x1024, .i32⟩
  | .local _ .vmem, ⟨1, _⟩ => ⟨S2x1024x1024, .i32⟩
  | .local _ .vmem, ⟨2, _⟩ => ⟨S2x1024x1024, .i32⟩
  | .local _ .vmem, ⟨3, _⟩ => ⟨S2x1024x1024, .i32⟩
  | .local _ .vmem, ⟨4, _⟩ => ⟨S1x3x128, .f32⟩
  | .local _ .vmem, ⟨5, _⟩ => ⟨S1x3x128, .f32⟩
  | .local _ .vmem, ⟨6, _⟩ => ⟨S1x3x128, .f32⟩
  | _, _ => ⟨S16x1024x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x3x128_S1x3x128_0_0_0 : ∀ a, (![0, 0, 0] : Fin 3 → Nat) a + S1x3x128.size a ≤ S1x3x128.size a
  h_S1x3x128 : 0 < S1x3x128.numel
  shapeCasts_S1x3x128_S1x3x128 : S1x3x128.ShapeCasts S1x3x128
  inb_S2x1024x1024_S2x1024x1024_0_0_0 : ∀ a, (![0, 0, 0] : Fin 3 → Nat) a + S2x1024x1024.size a ≤ S2x1024x1024.size a
  h_S2x1024x1024 : 0 < S2x1024x1024.numel
  natLt_1_32 : 1 < 32
  iota_S1x128_d1_w32 : S1x128.Iotas .tc 32 [1]
  shapeCasts_S2x1024x1024_S1x2x1024x1024 : S2x1024x1024.ShapeCasts S1x2x1024x1024
  reduces_S1x2x1024x1024_S1 : S1x2x1024x1024.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  inb_S1x3x128_S1x1x128_0_0_0 : ∀ a, (![0, 0, 0] : Fin 3 → Nat) a + S1x1x128.size a ≤ S1x3x128.size a
  h_S1x1x128 : 0 < S1x1x128.numel
  shapeCasts_S1x1x128_S128 : S1x1x128.ShapeCasts S128
  shapeCasts_S1x128_S128 : S1x128.ShapeCasts S128
  shapeCasts_S128_S1x1x128 : S128.ShapeCasts S1x1x128
  inb_S1x3x128_S1x1x128_0_1_0 : ∀ a, (![0, 1, 0] : Fin 3 → Nat) a + S1x1x128.size a ≤ S1x3x128.size a
  inb_S1x3x128_S1x1x128_0_2_0 : ∀ a, (![0, 2, 0] : Fin 3 → Nat) a + S1x1x128.size a ≤ S1x3x128.size a
  reducesTo_S2x3x128_S3x128_d0 : S2x3x128.ReducesTo [0] S3x128
  h_S_ : 0 < S_.numel
  slices_S3x128_S1x19_0_0 : S3x128.Slices ![0, 0] S1x19
  shapeCasts_S1x19_S19 : S1x19.ShapeCasts S19
  slices_S3x128_S1x19_1_0 : S3x128.Slices ![1, 0] S1x19
  slices_S3x128_S1x19_2_0 : S3x128.Slices ![2, 0] S1x19
  bcast_S_S19 : S_.BroadcastsInDim S19 (![] : Fin 0 → Fin S19.rank)
  reducesTo_S19_S_d0 : S19.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x1024.size a ≤ S16x1024x1024.size a
  hwx0_0 : ∀ i : grid0.Coords, EltTy.bits .i32 = 32 ∨ (Rect.block (s := S16x1024x1024) S2x1024x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x1024.size a ≤ S16x1024x1024.size a
  hwx0_1 : ∀ i : grid0.Coords, EltTy.bits .i32 = 32 ∨ (Rect.block (s := S16x1024x1024) S2x1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x128.size a ≤ S2x3x128.size a
  hwx0_2 : ∀ i : grid0.Coords, EltTy.bits .f32 = 32 ∨ (Rect.block (s := S2x3x128) S1x3x128.size (cc0_transform_2 i) (hinb0_2 i)).WholeWords (EltTy.packing .f32)

variable [Facts₀]

abbrev win0_0 : Pipeline.Window sig grid0 :=
  Pipeline.Window.ofSpec (Memref.whole main_arg0) S2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S16777216 : Shape := ⟨1, ![16777216]⟩
abbrev S_ : Shape := ⟨0, ![]⟩
abbrev S19 : Shape := ⟨1, ![19]⟩
abbrev S16777216x1 : Shape := ⟨2, ![16777216, 1]⟩

abbrev nBuf : Space → Nat
  | .hbm => 75
  | .vmem => 0
  | .smem => 0
  | _ => 0

abbrev bufTy : (tb : Table) → Fin (tcTables nBuf tb) → BufTy
  | .hbm, ⟨0, _⟩ => ⟨S16x1024x1024, .i32⟩
  | .hbm, ⟨1, _⟩ => ⟨S16x1024x1024, .i32⟩
  | .hbm, ⟨2, _⟩ => ⟨S16777216, .i32⟩
  | .hbm, ⟨3, _⟩ => ⟨S16777216, .i32⟩
  | .hbm, ⟨4, _⟩ => ⟨S_, .i32⟩
  | .hbm, ⟨5, _⟩ => ⟨S19, .i32⟩
  | .hbm, ⟨6, _⟩ => ⟨S_, .i32⟩
  | .hbm, ⟨7, _⟩ => ⟨S_, .i32⟩
  | .hbm, ⟨8, _⟩ => ⟨S16777216, .i32⟩
  | .hbm, ⟨9, _⟩ => ⟨S16777216, .i32⟩
  | .hbm, ⟨10, _⟩ => ⟨S_, .i32⟩
  | .hbm, ⟨11, _⟩ => ⟨S16777216, .i32⟩
  | .hbm, ⟨12, _⟩ => ⟨S16777216, .i1⟩
  | .hbm, ⟨13, _⟩ => ⟨S_, .i32⟩
  | .hbm, ⟨14, _⟩ => ⟨S16777216, .i32⟩
  | .hbm, ⟨15, _⟩ => ⟨S16777216, .i32⟩
  | .hbm, ⟨16, _⟩ => ⟨S16777216, .i32⟩
  | .hbm, ⟨17, _⟩ => ⟨S16777216x1, .i32⟩
  | .hbm, ⟨18, _⟩ => ⟨S_, .i32⟩
  | .hbm, ⟨19, _⟩ => ⟨S16777216, .i32⟩
  | .hbm, ⟨20, _⟩ => ⟨S19, .i32⟩
  | .hbm, ⟨21, _⟩ => ⟨S19, .f32⟩
  | .hbm, ⟨22, _⟩ => ⟨S_, .i32⟩
  | .hbm, ⟨23, _⟩ => ⟨S19, .i32⟩
  | .hbm, ⟨24, _⟩ => ⟨S_, .i32⟩
  | .hbm, ⟨25, _⟩ => ⟨S_, .i32⟩
  | .hbm, ⟨26, _⟩ => ⟨S16777216, .i32⟩
  | .hbm, ⟨27, _⟩ => ⟨S16777216, .i32⟩
  | .hbm, ⟨28, _⟩ => ⟨S_, .i32⟩
  | .hbm, ⟨29, _⟩ => ⟨S16777216, .i32⟩
  | .hbm, ⟨30, _⟩ => ⟨S16777216, .i1⟩
  | .hbm, ⟨31, _⟩ => ⟨S_, .i32⟩
  | .hbm, ⟨32, _⟩ => ⟨S16777216, .i32⟩
  | .hbm, ⟨33, _⟩ => ⟨S16777216, .i32⟩
  | .hbm, ⟨34, _⟩ => ⟨S16777216, .i32⟩
  | .hbm, ⟨35, _⟩ => ⟨S16777216x1, .i32⟩
  | .hbm, ⟨36, _⟩ => ⟨S_, .i32⟩
  | .hbm, ⟨37, _⟩ => ⟨S16777216, .i32⟩
  | .hbm, ⟨38, _⟩ => ⟨S19, .i32⟩
  | .hbm, ⟨39, _⟩ => ⟨S19, .f32⟩
  | .hbm, ⟨40, _⟩ => ⟨S16777216, .i1⟩
  | .hbm, ⟨41, _⟩ => ⟨S16777216, .f32⟩
  | .hbm, ⟨42, _⟩ => ⟨S_, .f32⟩
  | .hbm, ⟨43, _⟩ => ⟨S19, .f32⟩
  | .hbm, ⟨44, _⟩ => ⟨S_, .i32⟩
  | .hbm, ⟨45, _⟩ => ⟨S_, .i32⟩
  | .hbm, ⟨46, _⟩ => ⟨S16777216, .i32⟩
  | .hbm, ⟨47, _⟩ => ⟨S16777216, .i32⟩
  | .hbm, ⟨48, _⟩ => ⟨S_, .i32⟩
  | .hbm, ⟨49, _⟩ => ⟨S16777216, .i32⟩
  | .hbm, ⟨50, _⟩ => ⟨S16777216, .i1⟩
  | .hbm, ⟨51, _⟩ => ⟨S_, .i32⟩
  | .hbm, ⟨52, _⟩ => ⟨S16777216, .i32⟩
  | .hbm, ⟨53, _⟩ => ⟨S16777216, .i32⟩
  | .hbm, ⟨54, _⟩ => ⟨S16777216, .i32⟩
  | .hbm, ⟨55, _⟩ => ⟨S16777216x1, .i32⟩
  | .hbm, ⟨56, _⟩ => ⟨S19, .f32⟩
  | .hbm, ⟨57, _⟩ => ⟨S19, .f32⟩
  | .hbm, ⟨58, _⟩ => ⟨S19, .f32⟩
  | .hbm, ⟨59, _⟩ => ⟨S_, .f32⟩
  | .hbm, ⟨60, _⟩ => ⟨S19, .f32⟩
  | .hbm, ⟨61, _⟩ => ⟨S19, .f32⟩
  | .hbm, ⟨62, _⟩ => ⟨S_, .f32⟩
  | .hbm, ⟨63, _⟩ => ⟨S19, .f32⟩
  | .hbm, ⟨64, _⟩ => ⟨S19, .f32⟩
  | .hbm, ⟨65, _⟩ => ⟨S_, .f32⟩
  | .hbm, ⟨66, _⟩ => ⟨S19, .f32⟩
  | .hbm, ⟨67, _⟩ => ⟨S19, .f32⟩
  | .hbm, ⟨68, _⟩ => ⟨S19, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S16x1024x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_c_5 : Ref sig .tc := ⟨.hbm, 24, rfl⟩
abbrev main_call1_v0 : Ref sig .tc := ⟨.hbm, 25, rfl⟩
abbrev main_call1_v1 : Ref sig .tc := ⟨.hbm, 26, rfl⟩
abbrev main_v14 : Ref sig .tc := ⟨.hbm, 27, rfl⟩
abbrev main_c_6 : Ref sig .tc := ⟨.hbm, 28, rfl⟩
abbrev main_v15 : Ref sig .tc := ⟨.hbm, 29, rfl⟩
abbrev main_v16 : Ref sig .tc := ⟨.hbm, 30, rfl⟩
abbrev main_c_7 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_8 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_c_9 : Ref sig .tc := ⟨.hbm, 44, rfl⟩
abbrev main_call2_v0 : Ref sig .tc := ⟨.hbm, 45, rfl⟩
abbrev main_call2_v1 : Ref sig .tc := ⟨.hbm, 46, rfl⟩
abbrev main_v27 : Ref sig .tc := ⟨.hbm, 47, rfl⟩
abbrev main_c_10 : Ref sig .tc := ⟨.hbm, 48, rfl⟩
abbrev main_v28 : Ref sig .tc := ⟨.hbm, 49, rfl⟩
abbrev main_v29 : Ref sig .tc := ⟨.hbm, 50, rfl⟩
abbrev main_c_11 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_12 : Ref sig .tc := ⟨.hbm, 59, rfl⟩
abbrev main_v37 : Ref sig .tc := ⟨.hbm, 60, rfl⟩
abbrev main_v38 : Ref sig .tc := ⟨.hbm, 61, rfl⟩
abbrev main_cst_13 : Ref sig .tc := ⟨.hbm, 62, rfl⟩
abbrev main_v39 : Ref sig .tc := ⟨.hbm, 63, rfl⟩
abbrev main_v40 : Ref sig .tc := ⟨.hbm, 64, rfl⟩
abbrev main_cst_14 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_15 : Ref sig .tc := ⟨.hbm, 69, rfl⟩
abbrev main_v44 : Ref sig .tc := ⟨.hbm, 70, rfl⟩
abbrev main_cst_16 : Ref sig .tc := ⟨.hbm, 71, rfl⟩
abbrev main_v45 : Ref sig .tc := ⟨.hbm, 72, rfl⟩
abbrev main_cst_17 : Ref sig .tc := ⟨.hbm, 73, rfl⟩
abbrev main_v46 : Ref sig .tc := ⟨.hbm, 74, rfl⟩

abbrev nD : Nat := 1
abbrev τ : Topo := Topo.v7x

variable {F : FTy → Type} [FloatOps F]

class Facts₀ : Prop where
  shapeCasts_S16x1024x1024_S16777216 : S16x1024x1024.ShapeCasts S16777216
  bcast_S_S19 : S_.BroadcastsInDim S19 (![] : Fin 0 → Fin S19.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  reducesTo_S19_S_d0 : S19.ReducesTo [0] S_
  h_S_ : 0 < S_.numel
  scatter_S19_S16777216x1_S16777216_n_0_0_1_wf : ScatterDims.WF S19 S16777216x1 S16777216 [] [0] [0] 1

variable [Facts₀]

def scatter_S19_S16777216x1_S16777216_n_0_0_1 : ScatterDims S19 S16777216x1 S16777216 where
  updateWindowDims := []
  insertedWindowDims := [0]
  scatterDimsToOperandDims := [0]
  indexVectorDim := 1
  wf := scatter_S19_S16777216x1_S16777216_n_0_0_1_wf

class Facts : Prop extends Facts₀ where

variable [Facts]
-- ==== Proof.Counts.lean ====
/-
  What both programs compute before the closing arithmetic: for each of the 19 classes, how many positions of a label
  map carry that class, and at how many positions the two maps agree on it. A count is a sum of indicators over all
  16·1024·1024 positions, taken in the extended reals (every term is 0 or 1, so order and grouping do not matter).
  The kernel meets the map in eight blocks of two consecutive slices along the first axis; a count over the whole map
  is the sum of the eight block counts.
-/
import Idealize.ShloMosaic.PureOps.Ideal
import Idealize.ShloMosaic.Lib.ValueIdx
import Mathlib.Algebra.BigOperators.Fin

noncomputable section

namespace Cert.Hist

open Idealize.ShloMosaic Idealize.ShloMosaic.ValueIdx

/-- A whole label map, and one block of it. -/
abbrev SA : Shape := ⟨3, ![16, 1024, 1024]⟩
abbrev SB : Shape := ⟨3, ![2, 1024, 1024]⟩

/-- The indicator of a proposition: 1 where it holds, 0 where it does not. -/
def ind (p : Prop) [Decidable p] : EReal := if p then 1 else 0

/-- The indicator of a proposition that holds is one; of one that fails, zero. -/
theorem ind_of_true (p : Prop) [Decidable p] (h : p) : ind p = 1 := by
  unfold ind
  exact if_pos h
theorem ind_of_false (p : Prop) [Decidable p] (h : ¬p) : ind p = 0 := by
  unfold ind
  exact if_neg h

/-- The word test for equality, on a word and itself, answers the one-bit word 1. -/
theorem cmpi_eq_refl {w : Nat} (x : BitVec w) : IntOp.cmpi .eq x x = 1#1 := by
  unfold IntOp.cmpi
  simp

/-- Class `i` as a 32-bit label word. -/
abbrev cls (i : Fin 19) : BitVec 32 := BitVec.ofNat 32 i.val

/-- How many positions of the map `A` carry class `i`. -/
def cnt (A : IVec SA 32) (i : Fin 19) : EReal := ∑ g : SA.Idx, ind (A g = cls i)

/-- At how many positions the maps `P` and `Y` agree and `Y` carries class `i`. -/
def agr (P Y : IVec SA 32) (i : Fin 19) : EReal := ∑ g : SA.Idx, ind (P g = Y g) * ind (Y g = cls i)

/-- The same two counts over one block. -/
def cntB (X : IVec SB 32) (i : Fin 19) : EReal := ∑ b : SB.Idx, ind (X b = cls i)
def agrB (X0 X1 : IVec SB 32) (i : Fin 19) : EReal := ∑ b : SB.Idx, ind (X0 b = X1 b) * ind (X1 b = cls i)

/-- Where entry `b` of block `k` sits in the whole map: slice `2k + b₀`, same row and column. -/
def pos (k : Fin 8) (b : SB.Idx) : SA.Idx :=
  ix3 (⟨2 * k.val + (b 0).val, by have h : (b 0).val < 2 := (b 0).isLt; have := k.isLt; omega⟩ : Fin 16)
    (⟨(b 1).val, (b 1).isLt⟩ : Fin 1024) (⟨(b 2).val, (b 2).isLt⟩ : Fin 1024)

/-- Block `k` of a map. -/
def blockOf (A : IVec SA 32) (k : Fin 8) : IVec SB 32 := fun b => A (pos k b)

/-- Blocks and their entries, paired, are exactly the positions of the map: `(k, b)` goes to `pos k b`, and position
    `(a, r, c)` comes from block `a / 2`, entry `(a mod 2, r, c)`, because `a = 2 · (a / 2) + a mod 2` with
    `a mod 2 < 2` is the only such way of writing `a`. -/
def blockEquiv : (Fin 8 × SB.Idx) ≃ SA.Idx where
  toFun p := pos p.1 p.2
  invFun g :=
    (⟨(g 0).val / 2, by have h : (g 0).val < 16 := (g 0).isLt; omega⟩,
      ix3 (⟨(g 0).val % 2, Nat.mod_lt _ (by decide)⟩ : Fin 2)
        (⟨(g 1).val, (g 1).isLt⟩ : Fin 1024) (⟨(g 2).val, (g 2).isLt⟩ : Fin 1024))
  left_inv p := by
    obtain ⟨k, b⟩ := p
    have hb : (b 0).val < 2 := (b 0).isLt
    refine Prod.ext (Fin.ext ?_) ?_
    · -- (2k + b₀) / 2 = k since b₀ < 2
      show (2 * k.val + (b 0).val) / 2 = k.val
      omega
    · funext a
      match a with
      | ⟨0, _⟩ => exact Fin.ext (show (2 * k.val + (b 0).val) % 2 = (b 0).val by omega)
      | ⟨1, _⟩ => rfl
      | ⟨2, _⟩ => rfl
  right_inv g := by
    have hg : (g 0).val < 16 := (g 0).isLt
    funext a
    match a with
    | ⟨0, _⟩ => exact Fin.ext (show 2 * ((g 0).val / 2) + (g 0).val % 2 = (g 0).val by omega)
    | ⟨1, _⟩ => rfl
    | ⟨2, _⟩ => rfl

/-- A sum over all positions of the map is the sum, over the eight blocks, of the sums over each block's entries:
    position `(a, r, c)` is entry `(a mod 2, r, c)` of block `a / 2`, and of no other. -/
theorem sum_blocks (f : SA.Idx → EReal) : ∑ g : SA.Idx, f g = ∑ k : Fin 8, ∑ b : SB.Idx, f (pos k b) := by
  -- re-index the sum over positions by (block, entry) pairs, then split the sum over pairs into the iterated sum
  refine (Fintype.sum_equiv blockEquiv (fun p => f (pos p.1 p.2)) f (fun _ => rfl)).symm.trans ?_
  exact Fintype.sum_prod_type (fun p : Fin 8 × SB.Idx => f (pos p.1 p.2))

theorem cnt_eq_blocks (A : IVec SA 32) (i : Fin 19) : cnt A i = ∑ k : Fin 8, cntB (blockOf A k) i := by
  unfold cnt cntB blockOf
  exact sum_blocks _

theorem agr_eq_blocks (P Y : IVec SA 32) (i : Fin 19) : agr P Y i = ∑ k : Fin 8, agrB (blockOf P k) (blockOf Y k) i := by
  unfold agr agrB blockOf
  exact sum_blocks _

/-- The count a block contributes to row `r` of the kernel's accumulator: row 0 counts predicted labels, row 1 true
    labels, row 2 agreements (`X0` the block of predictions, `X1` the block of true labels). -/
def rowCnt (r : Fin 3) (X0 X1 : IVec SB 32) (i : Fin 19) : EReal :=
  match r with
  | ⟨0, _⟩ => cntB X0 i
  | ⟨1, _⟩ => cntB X1 i
  | ⟨2, _⟩ => agrB X0 X1 i

/-- The three count vectors over the 19 classes, as the closing arithmetic takes them. -/
def cntV (A : IVec SA 32) : FVec Ideal (⟨1, ![19]⟩ : Shape) .f32 := fun j => cnt A ⟨(j 0).val, (j 0).isLt⟩
def agrV (P Y : IVec SA 32) : FVec Ideal (⟨1, ![19]⟩ : Shape) .f32 := fun j => agr P Y ⟨(j 0).val, (j 0).isLt⟩

end Cert.Hist

end
-- ==== Proof.PreFacts.lean ====
/-
  What the precondition says, decoded: it is the conjunction of two "all entries are ≥ 0" tests, one per label map,
  each a signed word comparison against zero reduced with `and` over every position. So under it no entry of either
  map is negative as a signed 32-bit integer.
-/
import proofs.«410929_j54176717472355_1_alg».proof.Pre_any_inputs
import proofs.«410929_j54176717472355_1_alg».proof.Proof.Gen.Pre_any_inputs
import proofs.«410929_j54176717472355_1_alg».proof.Proof.Counts
import Idealize.ShloMosaic.Lib.ReduceAll
import Idealize.ShloMosaic.Lib.StableHlo.Predicate

noncomputable section

namespace Cert.Hist

open Idealize.ShloMosaic

/-- A label word that passes the signed test "≥ the zero word" is non-negative as a signed integer. -/
theorem nonneg_of_sge_zero (x : BitVec 32) (e : IntOp.cmpi .sge x 0#32 = 1#1) : 0 ≤ x.toInt := by
  -- the signed comparison says (0 : word) read as an integer is ≤ x read as an integer, and the zero word reads as 0
  have h := IntOp.cmpi_sge.1 e
  rwa [show (0#32 : BitVec 32).toInt = 0 from by decide] at h

/-- Under the precondition every label of both maps is non-negative. -/
theorem nonneg_of_pre {F : FTy → Type} [FloatOps F] (P Y : IVec SA 32)
    (h : Cert.Pre_any_inputs.fn (F := F) P Y = fun _ => 1#1) :
    (∀ g, 0 ≤ (P g).toInt) ∧ (∀ g, 0 ≤ (Y g).toInt) := by
  -- the result has a single entry; read the claim there
  have h0 := congrFun h ValueIdx.ix0
  dsimp only [Cert.Pre_any_inputs.fn] at h0
  -- it is the "and" of the two tests, so each test came out true
  obtain ⟨hP, hY⟩ := IntOp.andi_eq_one.1 h0
  haveI : Subsingleton Cert.Pre_any_inputs.S_.Idx := ⟨fun a b => funext fun d => d.elim0⟩
  refine ⟨fun g => ?_, fun g => ?_⟩
  · -- an "and" over all positions that is true was true at position g, where it compares P g with the constant 0
    exact nonneg_of_sge_zero (P g) (Host.reduce_andi_all _ _ _ _ _ hP g)
  · -- likewise for the second map
    exact nonneg_of_sge_zero (Y g) (Host.reduce_andi_all _ _ _ _ _ hY g)

end Cert.Hist

end
-- ==== Proof.Tail.lean ====
/-
  The closing arithmetic both programs share. From three vectors over the 19 classes — how often each class occurs
  among the true labels (`cy`), among the predicted labels (`cp`), and how often the two maps agree on it (`ci`) —
  the Dice coefficient of class `i` is `(2·ci i + ε) / ((cy i + cp i) − ci i + ε)`, and the loss is one minus the mean
  of the 19 coefficients. Both programs spell it with the same host operations in the same order, so it is carried as
  one function and never opened: the two results are equal as soon as the three vectors are.
-/
import Idealize.ShloMosaic.PureOps.Ideal
import Idealize.ShloMosaic.PureOps.Contract

noncomputable section

namespace Cert.DiceTail

open Idealize.ShloMosaic

abbrev S19 : Shape := ⟨1, ![19]⟩
abbrev S_ : Shape := ⟨0, ![]⟩

/-- One minus the mean over the 19 classes of `(2·ci + ε) / ((cy + cp) − ci + ε)`, in the host operations' own spelling
    (the shape facts the operations take are parameters: any proofs of them give the same function). -/
def loss (hb : S_.BroadcastsInDim S19 (![] : Fin 0 → Fin S19.rank)) (hr : S19.ReducesTo [0] S_) (h0 : 0 < S_.numel)
    (cy cp ci : FVec Ideal S19 .f32) : FVec Ideal S_ .f32 :=
  subf (constant (F := Ideal) S_ .f32 0x3F800000#32)
    (Host.divf
      (Host.reduceAdd
        (Host.divf
          (addf (mulf (broadcastInDim S19 ![] hb (constant (F := Ideal) S_ .f32 0x40000000#32)) ci)
            (broadcastInDim S19 ![] hb (constant (F := Ideal) S_ .f32 0x3727C5AC#32)))
          (addf (subf (addf cy cp) ci) (broadcastInDim S19 ![] hb (constant (F := Ideal) S_ .f32 0x3727C5AC#32))))
        (constant (F := Ideal) S_ .f32 0x00000000#32) hr h0)
      (constant (F := Ideal) S_ .f32 0x41980000#32))

end Cert.DiceTail

end
-- ==== Proof.LibScatterAddInt.lean ====
/-
  A scatter whose combining function is integer addition, read at one entry.

  The scatter visits the update positions one after another (row-major order) and, for an update whose window start lands
  inside the operand, adds the update to the entry it lands on; an update that lands outside is dropped. Because every
  step changes at most the one entry it lands on, the entry `i` of the result is the operand's entry plus the sum of
  exactly those updates that land on `i` — whatever the order, since word addition is commutative and associative. This
  is the reading a histogram built by `.at[idx].add(1)` needs: bin `i` holds the initial value plus the number of index
  words equal to `i`.
-/
import Idealize.ShloMosaic.PureOps.ShapeOps
import Idealize.ShloMosaic.PureOps.Dims
import Mathlib.Data.BitVec
import Mathlib.Algebra.BigOperators.Fin

noncomputable section

namespace Cert.LibScatterAddInt

open Idealize.ShloMosaic

/-- A scatter whose body adds integers, read at entry `i`: the operand's entry plus the sum of the updates that land
    on `i`. The scatter is a left fold over the update positions in row-major order; an induction on that list shows
    each step adds its update to entry `i` when it lands there and leaves the entry alone when it does not, and the
    sum over the list of positions is the sum over all update indices. -/
theorem scatter_addi_apply {s si u : Shape} {w v : Nat} (d : ScatterDims s si u) (x : s.Idx → BitVec v)
    (idx : IVec si w) (upd : u.Idx → BitVec v) (i : s.Idx) :
    Host.scatter d IntOp.addi x idx upd i
      = x i + ∑ j : u.Idx, if d.resultIdx? j idx = some i then upd j else 0 := by
  have hsum : (∑ j : u.Idx, if d.resultIdx? j idx = some i then upd j else 0)
      = ((List.finRange u.numel).map fun n =>
          if d.resultIdx? (u.rowMajor.symm n) idx = some i then upd (u.rowMajor.symm n) else 0).sum := by
    rw [← Fin.sum_univ_def]
    exact (Equiv.sum_comp u.rowMajor.symm (fun j => if d.resultIdx? j idx = some i then upd j else 0)).symm
  rw [hsum]
  unfold Host.scatter
  generalize List.finRange u.numel = L
  induction L generalizing x with
  | nil => simp
  | cons n L ih =>
    rw [List.foldl_cons, ih, List.map_cons, List.sum_cons, ← add_assoc]
    congr 1
    cases h : d.resultIdx? (u.rowMajor.symm n) idx with
    | none => simp
    | some i' =>
      by_cases hi : i = i'
      · subst hi; simp [IntOp.addi]
      · have : ¬ (some i' = some i) := fun e => hi (Option.some.inj e).symm
        simp [hi, this]

end Cert.LibScatterAddInt

end
-- ==== Proof.RefValue.lean ====
/-
  The reference's value. It flattens both label maps, clips each at zero from below, and builds three histograms over
  19 bins by scatter-add: of the true labels and of the predicted labels with weight one (integer adds, then a
  conversion to float), and of the true labels weighted by the agreement indicator (float adds). A bin receives exactly
  the updates whose clipped label equals its number; an update whose label is 19 or more lands outside and is dropped.
  Where no label is negative the clip is the identity, so bin `i` of each histogram is the count of positions carrying
  class `i` — the counts of Counts.lean — and the rest of the program is the shared closing arithmetic.
-/
import proofs.«410929_j54176717472355_1_alg».proof.Proof.Gen.ReferenceIdeal.Read
import proofs.«410929_j54176717472355_1_alg».proof.Proof.Counts
import proofs.«410929_j54176717472355_1_alg».proof.Proof.Tail
import proofs.«410929_j54176717472355_1_alg».proof.Proof.LibScatterAddInt
import Idealize.ShloMosaic.Lib.ValueIdx
import Mathlib.Data.BitVec
import Mathlib.Algebra.BigOperators.Fin
import Mathlib.Data.EReal.Basic

noncomputable section

namespace Cert.ReferenceIdeal.RefValue

open Cert.ReferenceIdeal Cert.ReferenceIdeal.Gen Idealize.ShloMosaic Cert.Hist
open Idealize.ShloMosaic.ValueIdx Cert.LibScatterAddInt

/-! ## The closing arithmetic -/

/-- The reference's result is the closing arithmetic applied to its three histogram stages. -/
theorem tail_eq (P Y : IVec SA 32) :
    Cert.ReferenceIdeal.Read.val_main_v46 (F := Ideal) P Y
      = Cert.DiceTail.loss bcast_S_S19 reducesTo_S19_S_d0 h_S_
          (Read.val_main_v12 (F := Ideal) Y) (Read.val_main_v23 (F := Ideal) P) (Read.val_main_v34 (F := Ideal) P Y) := by
  unfold Read.val_main_v46 Read.val_main_v45 Read.val_main_v44 Read.val_main_v43 Read.val_main_v42 Read.val_main_v41
    Read.val_main_v40 Read.val_main_v39 Read.val_main_v38 Read.val_main_v37 Read.val_main_v36 Read.val_main_v35
    Read.val_main_cst_12 Read.val_main_cst_13 Read.val_main_cst_14 Read.val_main_cst_15 Read.val_main_cst_16 Read.val_main_cst_17
    Cert.DiceTail.loss
  rfl

/-! ## Where an update lands -/

/-- The position of the scatter indices from which update `j` reads its start index: row `j`, column 0. -/
abbrev sIdx (j : S16777216.Idx) : S16777216x1.Idx :=
  ix2 (⟨(j 0).val, (j 0).isLt⟩ : Fin 16777216) (⟨0, Nat.one_pos⟩ : Fin 1)

/-- On the histogram's one axis the start of update `j`'s window is the index word at row `j`, read signed, and the
    window coordinate is zero (the axis is an inserted one: an update is a single element). -/
theorem start_add_window (j : S16777216.Idx) (idx : IVec S16777216x1 32) (a : Fin S19.rank) :
    scatter_S19_S16777216x1_S16777216_n_0_0_1.start j idx a + scatter_S19_S16777216x1_S16777216_n_0_0_1.window j a
      = (idx (sIdx j)).toInt := by
  obtain rfl : a = 0 := Subsingleton.elim _ _
  have hk : scatter_S19_S16777216x1_S16777216_n_0_0_1.sKept = [] := rfl
  have hw : scatter_S19_S16777216x1_S16777216_n_0_0_1.window j 0 = 0 := by
    unfold ScatterDims.window
    exact dif_neg (by rw [hk]; exact List.not_mem_nil)
  rw [hw]
  unfold ScatterDims.start
  rw [dif_pos (show (0 : Fin S19.rank) ∈ scatter_S19_S16777216x1_S16777216_n_0_0_1.scatterDimsToOperandDims from
    List.mem_singleton.mpr rfl)]
  have hsi : scatter_S19_S16777216x1_S16777216_n_0_0_1.siIdx j
      ⟨List.idxOf (0 : Fin S19.rank) scatter_S19_S16777216x1_S16777216_n_0_0_1.scatterDimsToOperandDims,
        List.idxOf_lt_length_iff.2 (List.mem_singleton.mpr rfl)⟩ = sIdx j := by
    funext b; refine Fin.ext ?_
    match b with
    | ⟨0, _⟩ => rfl
    | ⟨1, _⟩ => rfl
  rw [hsi]
  simp

/-- Update `j` lands in bin `i` exactly when its index word, read signed, is `i`: a word outside `0 … 18` lands
    nowhere. -/
theorem resultIdx?_eq_some_iff (j : S16777216.Idx) (idx : IVec S16777216x1 32) (i : Fin 19) :
    scatter_S19_S16777216x1_S16777216_n_0_0_1.resultIdx? j idx = some (ix1 i)
      ↔ (idx (sIdx j)).toInt = (i.val : Int) := by
  unfold ScatterDims.resultIdx?
  have hi : i.val < 19 := i.isLt
  split
  · next h =>
    rw [Option.some.injEq]
    constructor
    · intro e
      have e0 := congrArg (fun f => (f 0).val) e
      simp only [start_add_window] at e0
      have h0 := (h 0).1
      rw [start_add_window] at h0
      show (idx (sIdx j)).toInt = (i.val : Int)
      have : ((idx (sIdx j)).toInt.toNat : Int) = (i.val : Int) := congrArg Nat.cast e0
      omega
    · intro e
      funext a
      obtain rfl : a = 0 := Subsingleton.elim _ _
      refine Fin.ext ?_
      show (scatter_S19_S16777216x1_S16777216_n_0_0_1.start j idx 0
        + scatter_S19_S16777216x1_S16777216_n_0_0_1.window j 0).toNat = i.val
      rw [start_add_window, e]; simp
  · next h =>
    constructor
    · intro e; exact absurd e (by simp)
    · intro e
      exfalso; apply h
      intro a
      rw [start_add_window, e]
      obtain rfl : a = 0 := Subsingleton.elim _ _
      show (0 : Int) ≤ (i.val : Int) ∧ (i.val : Int) < ((19 : Nat) : Int)
      omega

/-! ## Words -/

/-- On a label that is not negative, clipping at zero from below and then moving a negative index up by 19 both
    leave it as it is. -/
theorem clip_wrap_eq (y : BitVec 32) (hy : 0 ≤ y.toInt) :
    Scalar.select (IntOp.cmpi .slt (IntOp.maxsi 0#32 y) 0#32) (IntOp.addi (IntOp.maxsi 0#32 y) 19#32) (IntOp.maxsi 0#32 y)
      = y := by
  have hs : y.slt 0#32 = false := by
    rw [BitVec.slt_eq_decide, BitVec.toInt_zero]
    exact decide_eq_false (by omega)
  have hm : IntOp.maxsi 0#32 y = y := by
    unfold IntOp.maxsi
    rw [hs]; rfl
  rw [hm]
  unfold IntOp.cmpi
  simp only [hs]
  rfl

/-- A label word, read signed, is the class number `i` exactly when it is the word of class `i`. -/
theorem toInt_eq_cls_iff (y : BitVec 32) (i : Fin 19) : y.toInt = (i.val : Int) ↔ y = cls i := by
  have hi : i.val < 19 := i.isLt
  have hc : (cls i).toInt = (i.val : Int) := by
    have hn : (cls i).toNat = i.val := by
      show (BitVec.ofNat 32 i.val).toNat = i.val
      rw [BitVec.toNat_ofNat]; omega
    rw [BitVec.toInt_eq_toNat_of_lt (by rw [hn]; omega), hn]
  rw [← hc]
  exact BitVec.toInt_inj

/-- The agreement bit of two labels, converted to a float, is the indicator that they are equal. -/
theorem uitofp_cmpi_eq (p y : BitVec 32) :
    FloatOps.uitofp (F := Ideal) .f32 (IntOp.cmpi .eq p y) = ind (p = y) := by
  show (((BitVec.ofBool (p == y)).toNat : ℝ) : EReal) = if p = y then 1 else 0
  by_cases h : p = y
  · rw [if_pos h, beq_iff_eq.mpr h]; simp
  · rw [if_neg h, beq_eq_false_iff_ne.mpr h]; simp

/-! ## Counting -/

/-- The real number of a finite sum, seen in the extended reals, is the sum of the terms seen there. -/
theorem coe_sum {ι : Type} (s : Finset ι) (f : ι → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The number of positions with a property, as an extended real, is the sum of the property's indicators. -/
theorem card_eq_sum_ind {ι : Type} [Fintype ι] (p : ι → Prop) [DecidablePred p] :
    (((Finset.univ.filter p).card : ℝ) : EReal) = ∑ a : ι, ind (p a) := by
  have h : ((Finset.univ.filter p).card : ℝ) = ∑ a : ι, (if p a then (1 : ℝ) else 0) := by
    rw [Finset.sum_boole]
  rw [h, coe_sum]
  refine Finset.sum_congr rfl fun a _ => ?_
  unfold ind
  split <;> simp

/-- A 32-bit sum of ones over the positions with a property, read signed, is the number of those positions, as long
    as there are fewer than 2^31 positions in all: the sum is the count modulo 2^32, and the count is below 2^31. -/
theorem toInt_sum_ones {ι : Type} [Fintype ι] (p : ι → Prop) [DecidablePred p] (hc : Fintype.card ι < 2 ^ 31) :
    (∑ a : ι, if p a then (1#32 : BitVec 32) else 0).toInt = ((Finset.univ.filter p).card : Int) := by
  have h1 : (∑ a : ι, if p a then (1#32 : BitVec 32) else 0) = BitVec.ofNat 32 (Finset.univ.filter p).card := by
    have : (∑ a : ι, if p a then (1 : BitVec 32) else 0) = ((Finset.univ.filter p).card : BitVec 32) :=
      Finset.sum_boole p Finset.univ
    exact this
  have hle : (Finset.univ.filter p).card ≤ Fintype.card ι := by
    rw [← Finset.card_univ]; exact Finset.card_filter_le _ _
  have hn : (BitVec.ofNat 32 (Finset.univ.filter p).card).toNat = (Finset.univ.filter p).card := by
    rw [BitVec.toNat_ofNat]; omega
  rw [h1, BitVec.toInt_eq_toNat_of_lt (by rw [hn]; omega), hn]

/-! ## Flat positions and positions of the map -/

/-- The reshape's correspondence between the 16777216 flat positions and the positions of a `16×1024×1024` map: flat
    position `n` is slice `n / 1048576`, row `n / 1024 mod 1024`, column `n mod 1024`. -/
def flatEquiv : S16777216.Idx ≃ SA.Idx where
  toFun := Read.idx_main_v0
  invFun g := ix1 (⟨((g 0).val * 1024 + (g 1).val) * 1024 + (g 2).val, by
    have h0 : (g 0).val < 16 := (g 0).isLt
    have h1 : (g 1).val < 1024 := (g 1).isLt
    have h2 : (g 2).val < 1024 := (g 2).isLt
    omega⟩ : Fin 16777216)
  left_inv j := by
    funext a
    match a with
    | ⟨0, _⟩ =>
      refine Fin.ext ?_
      have h0 : (j 0).val < 16777216 := (j 0).isLt
      show (((j 0).val / 1048576) * 1024 + (j 0).val / 1024 % 1024) * 1024 + (j 0).val % 1024 = (j 0).val
      omega
  right_inv g := by
    have h0 : (g 0).val < 16 := (g 0).isLt
    have h1 : (g 1).val < 1024 := (g 1).isLt
    have h2 : (g 2).val < 1024 := (g 2).isLt
    funext a
    match a with
    | ⟨0, _⟩ =>
      refine Fin.ext ?_
      show (((g 0).val * 1024 + (g 1).val) * 1024 + (g 2).val) / 1048576 = (g 0).val
      omega
    | ⟨1, _⟩ =>
      refine Fin.ext ?_
      show (((g 0).val * 1024 + (g 1).val) * 1024 + (g 2).val) / 1024 % 1024 = (g 1).val
      omega
    | ⟨2, _⟩ =>
      refine Fin.ext ?_
      show (((g 0).val * 1024 + (g 1).val) * 1024 + (g 2).val) % 1024 = (g 2).val
      omega

theorem card_flat : Fintype.card S16777216.Idx < 2 ^ 31 := by
  rw [Shape.card_idx, Shape.numel_rank1]
  show 16777216 < 2 ^ 31
  omega

/-! ## The index words -/

/-- Row `j` of the scatter indices of the first histogram is the true label at flat position `j`. -/
theorem idx9_read (Y : IVec SA 32) (hY : ∀ g, 0 ≤ (Y g).toInt) (j : S16777216.Idx) :
    Read.val_main_v9 (F := Ideal) Y (sIdx j) = Y (flatEquiv j) := by
  have hj : Read.idx_main_v9 (sIdx j) = j := by
    funext a; match a with | ⟨0, _⟩ => rfl
  rw [Read.val_main_v9_apply, hj, Read.val_main_v8_apply, Read.val_main_v5_apply, Read.val_main_v7_apply,
    Read.val_main_v3_apply, Read.val_main_v4_apply, Read.val_main_v6_apply, Read.val_main_call0_v1_apply,
    Read.val_main_call0_v0_apply, Read.val_main_c_0_apply, Read.val_main_c_1_apply, Read.val_main_c_2_apply,
    Read.val_main_v1_apply]
  exact clip_wrap_eq _ (hY _)

/-- Row `j` of the scatter indices of the second histogram is the predicted label at flat position `j`. -/
theorem idx20_read (P : IVec SA 32) (hP : ∀ g, 0 ≤ (P g).toInt) (j : S16777216.Idx) :
    Read.val_main_v20 (F := Ideal) P (sIdx j) = P (flatEquiv j) := by
  have hj : Read.idx_main_v20 (sIdx j) = j := by
    funext a; match a with | ⟨0, _⟩ => rfl
  rw [Read.val_main_v20_apply, hj, Read.val_main_v19_apply, Read.val_main_v16_apply, Read.val_main_v18_apply,
    Read.val_main_v14_apply, Read.val_main_v15_apply, Read.val_main_v17_apply, Read.val_main_call1_v1_apply,
    Read.val_main_call1_v0_apply, Read.val_main_c_5_apply, Read.val_main_c_6_apply, Read.val_main_c_7_apply,
    Read.val_main_v0_apply]
  exact clip_wrap_eq _ (hP _)

/-- Row `j` of the scatter indices of the third histogram is the true label at flat position `j`. -/
theorem idx33_read (Y : IVec SA 32) (hY : ∀ g, 0 ≤ (Y g).toInt) (j : S16777216.Idx) :
    Read.val_main_v33 (F := Ideal) Y (sIdx j) = Y (flatEquiv j) := by
  have hj : Read.idx_main_v33 (sIdx j) = j := by
    funext a; match a with | ⟨0, _⟩ => rfl
  rw [Read.val_main_v33_apply, hj, Read.val_main_v32_apply, Read.val_main_v29_apply, Read.val_main_v31_apply,
    Read.val_main_v27_apply, Read.val_main_v28_apply, Read.val_main_v30_apply, Read.val_main_call2_v1_apply,
    Read.val_main_call2_v0_apply, Read.val_main_c_9_apply, Read.val_main_c_10_apply, Read.val_main_c_11_apply,
    Read.val_main_v1_apply]
  exact clip_wrap_eq _ (hY _)

/-! ## The three histograms -/

/-- An integer histogram: zeros, scattered into by ones at index words that are the labels of the map `A` in flat
    order, then converted to float, holds at bin `i` the number of positions of `A` carrying class `i`. -/
theorem int_hist (A : IVec SA 32) (idx : IVec S16777216x1 32) (zeros : IVec S19 32) (ones : IVec S16777216 32)
    (hz : ∀ k, zeros k = 0#32) (ho : ∀ j, ones j = 1#32) (hidx : ∀ j, idx (sIdx j) = A (flatEquiv j)) (i : Fin 19) :
    FloatOps.sitofp (F := Ideal) .f32
        (Host.scatter scatter_S19_S16777216x1_S16777216_n_0_0_1 IntOp.addi zeros idx ones (ix1 i))
      = cnt A i := by
  rw [scatter_addi_apply, hz]
  have hterm : ∀ j : S16777216.Idx,
      (if scatter_S19_S16777216x1_S16777216_n_0_0_1.resultIdx? j idx = some (ix1 i) then ones j else 0)
        = if A (flatEquiv j) = cls i then (1#32 : BitVec 32) else 0 := by
    intro j
    rw [ho]
    refine if_congr ?_ rfl rfl
    rw [resultIdx?_eq_some_iff, hidx, toInt_eq_cls_iff]
  rw [Finset.sum_congr rfl fun j _ => hterm j]
  show ((((0#32 : BitVec 32) + ∑ j : S16777216.Idx, if A (flatEquiv j) = cls i then (1#32 : BitVec 32) else 0).toInt : ℝ) : EReal)
    = cnt A i
  rw [BitVec.zero_add, toInt_sum_ones (fun j : S16777216.Idx => A (flatEquiv j) = cls i) card_flat, Int.cast_natCast,
    card_eq_sum_ind]
  unfold cnt
  exact Fintype.sum_equiv flatEquiv _ _ fun j => rfl

/-- The first histogram is the count vector of the true labels. -/
theorem hist_Y (Y : IVec SA 32) (hY : ∀ g, 0 ≤ (Y g).toInt) : Read.val_main_v12 (F := Ideal) Y = cntV Y := by
  funext k
  obtain ⟨i, rfl⟩ : ∃ i : Fin 19, k = ix1 i := ⟨k 0, eq_ix1 k⟩
  rw [Read.val_main_v12_apply]
  unfold Read.val_main_v11
  exact int_hist Y _ _ _ (fun k => by rw [Read.val_main_v2_apply, Read.val_main_c_apply])
    (fun j => by rw [Read.val_main_v10_apply, Read.val_main_c_3_apply]) (idx9_read Y hY) i

/-- The second histogram is the count vector of the predicted labels. -/
theorem hist_P (P : IVec SA 32) (hP : ∀ g, 0 ≤ (P g).toInt) : Read.val_main_v23 (F := Ideal) P = cntV P := by
  funext k
  obtain ⟨i, rfl⟩ : ∃ i : Fin 19, k = ix1 i := ⟨k 0, eq_ix1 k⟩
  rw [Read.val_main_v23_apply]
  unfold Read.val_main_v22
  exact int_hist P _ _ _ (fun k => by rw [Read.val_main_v13_apply, Read.val_main_c_4_apply])
    (fun j => by rw [Read.val_main_v21_apply, Read.val_main_c_8_apply]) (idx20_read P hP) i

/-- A float histogram: zeros, scatter-added into by the agreement indicators at index words that are the true labels in
    flat order, holds at bin `i` the number of positions where the maps agree and the true label is class `i`. -/
theorem float_hist (P Y : IVec SA 32) (idx : IVec S16777216x1 32) (zeros : FVec Ideal S19 .f32)
    (upd : FVec Ideal S16777216 .f32) (hz : ∀ k, zeros k = 0)
    (hupd : ∀ j, upd j = ind (P (flatEquiv j) = Y (flatEquiv j))) (hidx : ∀ j, idx (sIdx j) = Y (flatEquiv j))
    (i : Fin 19) :
    Host.scatterAdd scatter_S19_S16777216x1_S16777216_n_0_0_1 zeros idx upd (ix1 i) = agr P Y i := by
  unfold Host.scatterAdd
  rw [Ideal.hostScatterAdd_def]
  unfold Ideal.hostScatterAdd
  rw [hz, zero_add, Finset.sum_filter]
  unfold agr
  refine Fintype.sum_equiv flatEquiv _ _ fun j => ?_
  rw [hupd, if_congr ((resultIdx?_eq_some_iff j idx i).trans (by rw [hidx, toInt_eq_cls_iff])) rfl rfl]
  unfold ind
  by_cases h : Y (flatEquiv j) = cls i
  · rw [if_pos h, if_pos h, mul_one]
  · rw [if_neg h, if_neg h, mul_zero]

/-- The third histogram, a float scatter-add of the agreement indicators at the true labels, is the vector of
    agreement counts. -/
theorem hist_agree (P Y : IVec SA 32) (hY : ∀ g, 0 ≤ (Y g).toInt) : Read.val_main_v34 (F := Ideal) P Y = agrV P Y := by
  have hz : ∀ k, Read.val_main_v26 (F := Ideal) k = 0 := by
    intro k
    rw [Read.val_main_v26_apply, Read.val_main_cst_apply, Ideal.ofBits_def, Ideal.ofBits_zero_f32]
  have hupd : ∀ j, Read.val_main_v25 (F := Ideal) P Y j = ind (P (flatEquiv j) = Y (flatEquiv j)) := by
    intro j
    rw [Read.val_main_v25_apply, Read.val_main_v24_apply, Read.val_main_v0_apply, Read.val_main_v1_apply]
    exact uitofp_cmpi_eq _ _
  funext k
  obtain ⟨i, rfl⟩ : ∃ i : Fin 19, k = ix1 i := ⟨k 0, eq_ix1 k⟩
  unfold Read.val_main_v34
  exact float_hist P Y _ _ _ hz hupd (idx33_read Y hY) i
/-! ## The result -/

/-- On label maps with no negative entry the reference's result is the Dice loss of the three count vectors. -/
theorem result_eq (P Y : IVec SA 32) (hP : ∀ g, 0 ≤ (P g).toInt) (hY : ∀ g, 0 ≤ (Y g).toInt) :
    Cert.ReferenceIdeal.Read.val_main_v46 (F := Ideal) P Y
      = Cert.DiceTail.loss bcast_S_S19 reducesTo_S19_S_d0 h_S_ (cntV Y) (cntV P) (agrV P Y) := by
  rw [tail_eq, hist_Y Y hY, hist_P P hP, hist_agree P Y hY]

end Cert.ReferenceIdeal.RefValue

end
-- ==== Proof.KBody.lean ====
/-
  One run of the kernel body, read as values at the ideal instance. The body compares the block of predictions `x0`
  and the block of true labels `x1` with each class number 0 … 18, sums the three indicator arrays (prediction is the
  class; label is the class; label is the class and the two agree) over the whole block, and adds each sum into lane
  `class` of a 128-lane row through a one-hot lane mask. So lane `l < 19` of the three rows it adds to the accumulator
  is the block's count for class `l`: of predictions (row 0), of labels (row 1), of agreements (row 2). At a group's
  first point the accumulator is reset to zero first; otherwise it continues from what the point before left. The
  output block is a copy of the accumulator after the update.
-/
import proofs.«410929_j54176717472355_1_alg».proof.Proof.Gen.KernelIdeal.Frame
import proofs.«410929_j54176717472355_1_alg».proof.Proof.Counts
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.BodyValue

open Cert.KernelIdeal Cert.KernelIdeal.Gen Idealize.ShloMosaic Idealize.ShloMosaic.TcCoe Idealize.SL.Sem
open Idealize.ShloMosaic.ValueIdx Cert.Hist

/-- A one-bit comparison word, widened to 32 bits and read as a signed integer, is the indicator of the comparison. -/
private theorem sitofp_eq_ind {s : Shape} (v u : IVec s 32) (h : 1 < 32) (b : s.Idx) :
    (sitofp .f32 (extui 32 (cmpi .eq v u) h) : FVec Ideal s .f32) b = ind (v b = u b) := by
  show (((((IntOp.cmpi .eq (v b) (u b)).setWidth 32).toInt : ℝ)) : EReal) = ind (v b = u b)
  unfold IntOp.cmpi ind
  by_cases hvc : v b = u b
  · simp [hvc]
  · have hb : (v b == u b) = false := beq_eq_false_iff_ne.mpr hvc
    simp [hvc, hb]

/-- Summing a block through the four-axis view with a leading unit axis, into one number: the sum over the block. -/
private theorem total_eq_sum (w : FVec Ideal S2x1024x1024 .f32) (hsc : S2x1024x1024.ShapeCasts S1x2x1024x1024)
    (hred : S1x2x1024x1024.Reduces [1, 2, 3] S1) (hφ : FKind.Formats .f32)
    (hacc : (0x00000000#32 : BitVec 32) = 0x00000000#32)
    (hsc' : S1.ShapeCasts S1x1x1x1) (hpos : ∀ a, (![0, 0, 0, 0] : Fin 4 → Nat) a < S1x1x1x1.size a) :
    extractAt ![0, 0, 0, 0] (shapeCast S1x1x1x1
      (multiReduction .add [1, 2, 3] S1 (shapeCast S1x2x1024x1024 w hsc) 0x00000000#32 hred hφ hacc) hsc') hpos
      = ∑ b : S2x1024x1024.Idx, w b := by
  unfold extractAt
  show multiReduction .add [1, 2, 3] S1 (shapeCast S1x2x1024x1024 w hsc) 0x00000000#32 hred hφ hacc _ = _
  refine (Ideal.multiReduction_add_total _ _ hred (fun b => by fin_cases b; rfl) hφ hacc _).trans ?_
  unfold shapeCast
  exact Equiv.sum_comp (Shape.reshapeEquiv hsc) w

/-- The lane counter at lane `l` of the one row is `l`. -/
private theorem iota_lane (hi : S1x128.Iotas .tc 32 [1]) (l : Fin 128) :
    iota .tc S1x128 32 [1] hi (ix2 (0 : Fin 1) l) = BitVec.ofNat 32 l.val :=
  iota_single_apply .tc S1x128 32 1 hi (ix2 (0 : Fin 1) l)

/-- What a row update stores at lane `l`: the row's old lane plus the lane of the 128-lane addend (the two casts to
    a flat 128-vector and the cast back keep the lane). -/
private theorem row_store_apply (acc : FVec Ideal S1x128 .f32) (old : Vec Ideal S1x1x128 .f32)
    (h1 : S1x1x128.ShapeCasts S128) (h2 : S1x128.ShapeCasts S128) (h3 : S128.ShapeCasts S1x1x128) (l : Fin 128) :
    (shapeCast S1x1x128 (addf (shapeCast S128 old h1 : FVec Ideal S128 .f32) (shapeCast S128 acc h2)) h3 : FVec Ideal S1x1x128 .f32)
        (ix3 (0 : Fin 1) (0 : Fin 1) l)
      = old (ix3 (0 : Fin 1) (0 : Fin 1) l) + acc (ix2 (0 : Fin 1) l) := by
  refine (shapeCast_apply _ h3 _ (ix1 l) ?_).trans ?_
  · rw [Shape.rowMajor_val_one, Shape.rowMajor_val_three]
    show l.val = (0 * 1 + 0) * 128 + l.val
    omega
  · show shapeCast S128 old h1 (ix1 l) + shapeCast S128 acc h2 (ix1 l) = _
    congr 1
    · refine shapeCast_apply old h1 _ _ ?_
      rw [Shape.rowMajor_val_one, Shape.rowMajor_val_three]
      show (0 * 1 + 0) * 128 + l.val = l.val
      omega
    · refine shapeCast_apply acc h2 _ _ ?_
      rw [Shape.rowMajor_val_one, Shape.rowMajor_val_two]
      show 0 * 128 + l.val = l.val
      omega

/-- Lane `l` of the one-row rectangle at row `k` is entry `(0, k, l)` of the accumulator. -/
private theorem row_idx2 (inb2 : ∀ a, (![0, 2, 0] : Fin 3 → Nat) a + (![1, 1, 128] : Fin 3 → Nat) a ≤ S1x3x128.size a) (l : Fin 128) :
    ix3 (0 : Fin 1) (2 : Fin 3) l = (Rect.unit (s := S1x3x128) ![0, 2, 0] ![1, 1, 128] inb2).emb (ix3 (0 : Fin 1) (0 : Fin 1) l) := by
  funext a; apply Fin.ext
  match a with
  | ⟨0, _⟩ => rfl
  | ⟨1, _⟩ => rfl
  | ⟨2, _⟩ => show l.val = 0 + 1 * l.val; omega
private theorem row_idx1 (inb1 : ∀ a, (![0, 1, 0] : Fin 3 → Nat) a + (![1, 1, 128] : Fin 3 → Nat) a ≤ S1x3x128.size a) (l : Fin 128) :
    ix3 (0 : Fin 1) (1 : Fin 3) l = (Rect.unit (s := S1x3x128) ![0, 1, 0] ![1, 1, 128] inb1).emb (ix3 (0 : Fin 1) (0 : Fin 1) l) := by
  funext a; apply Fin.ext
  match a with
  | ⟨0, _⟩ => rfl
  | ⟨1, _⟩ => rfl
  | ⟨2, _⟩ => show l.val = 0 + 1 * l.val; omega
private theorem row_idx0 (inb0 : ∀ a, (![0, 0, 0] : Fin 3 → Nat) a + S1x1x128.size a ≤ S1x3x128.size a) (l : Fin 128) :
    ix3 (0 : Fin 1) (0 : Fin 3) l = (Rect.unit (s := S1x3x128) ![0, 0, 0] S1x1x128.size inb0).emb (ix3 (0 : Fin 1) (0 : Fin 1) l) := by
  funext a; apply Fin.ext
  match a with
  | ⟨0, _⟩ => rfl
  | ⟨1, _⟩ => rfl
  | ⟨2, _⟩ => show l.val = 0 + 1 * l.val; omega

/-- Three row stores, the last to row 2, then row 1, then row 0, over whatever was stored before: entry `(0, r, l)` of
    what they leave is lane `l` of row `r`'s payload. -/
private theorem canon_rows (w2 w1 w0 : S1x1x128.Idx → Elt Ideal .f32) (L : List (View.Piece (Elt Ideal) S1x3x128 .f32))
    (inb2 : ∀ a, (![0, 2, 0] : Fin 3 → Nat) a + (![1, 1, 128] : Fin 3 → Nat) a ≤ S1x3x128.size a)
    (inb1 : ∀ a, (![0, 1, 0] : Fin 3 → Nat) a + (![1, 1, 128] : Fin 3 → Nat) a ≤ S1x3x128.size a)
    (inb0 : ∀ a, (![0, 0, 0] : Fin 3 → Nat) a + S1x1x128.size a ≤ S1x3x128.size a) (r : Fin 3) (l : Fin 128) :
    View.canon (Val := Elt Ideal) (s := S1x3x128) (e := .f32)
        (⟨Rect.unit ![0, 2, 0] ![1, 1, 128] inb2, w2⟩ :: ⟨Rect.unit ![0, 1, 0] ![1, 1, 128] inb1, w1⟩ ::
          ⟨Rect.unit ![0, 0, 0] S1x1x128.size inb0, w0⟩ :: L) (ix3 (0 : Fin 1) r l)
      = match r with
        | ⟨0, _⟩ => w0 (ix3 (0 : Fin 1) (0 : Fin 1) l)
        | ⟨1, _⟩ => w1 (ix3 (0 : Fin 1) (0 : Fin 1) l)
        | ⟨2, _⟩ => w2 (ix3 (0 : Fin 1) (0 : Fin 1) l) := by
  match r with
  | ⟨2, _⟩ =>
    show View.canon _ (ix3 (0 : Fin 1) (2 : Fin 3) l) = _
    rw [row_idx2 inb2 l]; exact View.canon_cons_emb (Rect.unit (s := S1x3x128) ![0, 2, 0] ![1, 1, 128] inb2) w2 _ _
  | ⟨1, _⟩ =>
    show View.canon _ (ix3 (0 : Fin 1) (1 : Fin 3) l) = _
    rw [View.canon_cons_of_not_mem _ _ (by
      rw [Rect.mem_set_unit]; intro hm; have h : (2 : ℕ) ≤ 1 := (hm 1).1; omega)]
    rw [row_idx1 inb1 l]; exact View.canon_cons_emb (Rect.unit (s := S1x3x128) ![0, 1, 0] ![1, 1, 128] inb1) w1 _ _
  | ⟨0, _⟩ =>
    show View.canon _ (ix3 (0 : Fin 1) (0 : Fin 3) l) = _
    rw [View.canon_cons_of_not_mem _ _ (by
      rw [Rect.mem_set_unit]; intro hm; have h : (2 : ℕ) ≤ 0 := (hm 1).1; omega)]
    rw [View.canon_cons_of_not_mem _ _ (by
      rw [Rect.mem_set_unit]; intro hm; have h : (1 : ℕ) ≤ 0 := (hm 1).1; omega)]
    rw [row_idx0 inb0 l]; exact View.canon_cons_emb (Rect.unit (s := S1x3x128) ![0, 0, 0] S1x1x128.size inb0) w0 _ _

/-- The body's scalar zero constant is the extended real 0. -/
private theorem scalar_zero : Scalar.ofBits (F := Ideal) .f32 0x00000000#32 = (0 : EReal) := Ideal.ofBits_zero_f32

/-- A one-hot sum: lane `l < 19` takes, of nineteen numbers offered each through the indicator "the lane is class `c`",
    exactly the one of its own class. -/
private theorem onehot (l : Fin 128) (hl : l.val < 19) (n : BitVec 32 → EReal) :
    (0 : EReal) + ind (BitVec.ofNat 32 l.val = 0#32) * n 0#32 + ind (BitVec.ofNat 32 l.val = 1#32) * n 1#32 + ind (BitVec.ofNat 32 l.val = 2#32) * n 2#32 + ind (BitVec.ofNat 32 l.val = 3#32) * n 3#32 + ind (BitVec.ofNat 32 l.val = 4#32) * n 4#32 + ind (BitVec.ofNat 32 l.val = 5#32) * n 5#32 + ind (BitVec.ofNat 32 l.val = 6#32) * n 6#32 + ind (BitVec.ofNat 32 l.val = 7#32) * n 7#32 + ind (BitVec.ofNat 32 l.val = 8#32) * n 8#32 + ind (BitVec.ofNat 32 l.val = 9#32) * n 9#32 + ind (BitVec.ofNat 32 l.val = 10#32) * n 10#32 + ind (BitVec.ofNat 32 l.val = 11#32) * n 11#32 + ind (BitVec.ofNat 32 l.val = 12#32) * n 12#32 + ind (BitVec.ofNat 32 l.val = 13#32) * n 13#32 + ind (BitVec.ofNat 32 l.val = 14#32) * n 14#32 + ind (BitVec.ofNat 32 l.val = 15#32) * n 15#32 + ind (BitVec.ofNat 32 l.val = 16#32) * n 16#32 + ind (BitVec.ofNat 32 l.val = 17#32) * n 17#32 + ind (BitVec.ofNat 32 l.val = 18#32) * n 18#32
      = n (BitVec.ofNat 32 l.val) := by
  obtain ⟨lv, hlt⟩ := l
  simp only at hl
  interval_cases lv <;> (unfold ind; simp)

private theorem hz3 : (![0, 0, 0] : Fin 3 → Nat) = fun _ => 0 := funext fun a => by fin_cases a <;> rfl

/-- How many entries of a block carry the label word `c`; at how many the two blocks agree and the second carries `c`. -/
private def cntW (X : IVec S2x1024x1024 32) (c : BitVec 32) : EReal := ∑ b : S2x1024x1024.Idx, ind (X b = c)
private def agrW (X0 X1 : IVec S2x1024x1024 32) (c : BitVec 32) : EReal :=
  ∑ b : S2x1024x1024.Idx, ind (X0 b = X1 b) * ind (X1 b = c)

/-- The body's count of a class over a block: the indicator array of "the label is `c`", summed whole. -/
private theorem count_total (v : IVec S2x1024x1024 32) (c : BitVec 32) (h : 1 < 32)
    (hsc : S2x1024x1024.ShapeCasts S1x2x1024x1024)
    (hred : S1x2x1024x1024.Reduces [1, 2, 3] S1) (hφ : FKind.Formats .f32)
    (hacc : (0x00000000#32 : BitVec 32) = 0x00000000#32)
    (hsc' : S1.ShapeCasts S1x1x1x1) (hpos : ∀ a, (![0, 0, 0, 0] : Fin 4 → Nat) a < S1x1x1x1.size a) :
    extractAt ![0, 0, 0, 0] (shapeCast S1x1x1x1
      (multiReduction .add [1, 2, 3] S1 (shapeCast S1x2x1024x1024
        (sitofp .f32 (extui 32 (cmpi .eq v (broadcast S2x1024x1024 c)) h) : FVec Ideal S2x1024x1024 .f32) hsc)
        0x00000000#32 hred hφ hacc) hsc') hpos
      = cntW v c := by
  unfold cntW
  exact (total_eq_sum _ hsc hred hφ hacc hsc' hpos).trans
    (Finset.sum_congr rfl fun b _ => sitofp_eq_ind v (broadcast S2x1024x1024 c) h b)

/-- The body's count of agreements on a class: the product of the two indicator arrays, summed whole. -/
private theorem agree_total (v3 v4 : IVec S2x1024x1024 32) (c : BitVec 32) (h h' : 1 < 32)
    (hsc : S2x1024x1024.ShapeCasts S1x2x1024x1024)
    (hred : S1x2x1024x1024.Reduces [1, 2, 3] S1) (hφ : FKind.Formats .f32)
    (hacc : (0x00000000#32 : BitVec 32) = 0x00000000#32)
    (hsc' : S1.ShapeCasts S1x1x1x1) (hpos : ∀ a, (![0, 0, 0, 0] : Fin 4 → Nat) a < S1x1x1x1.size a) :
    extractAt ![0, 0, 0, 0] (shapeCast S1x1x1x1
      (multiReduction .add [1, 2, 3] S1 (shapeCast S1x2x1024x1024
        (mulf (sitofp .f32 (extui 32 (cmpi .eq v3 v4) h) : FVec Ideal S2x1024x1024 .f32)
          (sitofp .f32 (extui 32 (cmpi .eq v4 (broadcast S2x1024x1024 c)) h'))) hsc)
        0x00000000#32 hred hφ hacc) hsc') hpos
      = agrW v3 v4 c := by
  unfold agrW
  refine (total_eq_sum _ hsc hred hφ hacc hsc' hpos).trans (Finset.sum_congr rfl fun b _ => ?_)
  show (sitofp .f32 (extui 32 (cmpi .eq v3 v4) h) : FVec Ideal S2x1024x1024 .f32) b
      * (sitofp .f32 (extui 32 (cmpi .eq v4 (broadcast S2x1024x1024 c)) h') : FVec Ideal S2x1024x1024 .f32) b = _
  rw [sitofp_eq_ind v3 v4 h b, sitofp_eq_ind v4 (broadcast S2x1024x1024 c) h' b]
  rfl

/-- Sums, products and splats of 128-lane rows read lane by lane (the extended reals' own `+` and `*`). -/
private theorem addf_at {s : Shape} (a b : FVec Ideal s .f32) (i : s.Idx) : addf a b i = a i + b i := by
  unfold addf; exact Ideal.addf_def _ _
private theorem mulf_at {s : Shape} (a b : FVec Ideal s .f32) (i : s.Idx) : mulf a b i = a i * b i := by
  unfold mulf; exact Ideal.mulf_def _ _
private theorem broadcast_at {s : Shape} (x : Ideal .f32) (i : s.Idx) : (broadcast s x : FVec Ideal s .f32) i = x := by
  unfold broadcast; exact Eq.refl x
private theorem zero_at {s : Shape} (i : s.Idx) :
    (broadcast s (Scalar.ofBits (F := Ideal) .f32 0x00000000#32) : FVec Ideal s .f32) i = (0 : EReal) := by
  unfold broadcast; exact scalar_zero

/-- The one-hot lane mask of class `c`, read at a lane. -/
private theorem sel_at (c : BitVec 32) (h : 1 < 32) (v8 : IVec S1x128 32) (j : S1x128.Idx) :
    (sitofp .f32 (extui 32 (cmpi .eq v8 (broadcast S1x128 c)) h) : FVec Ideal S1x128 .f32) j = ind (v8 j = c) := by
  rw [sitofp_eq_ind]; unfold broadcast; exact Eq.refl _

set_option maxRecDepth 16384

/-- The body's zero constant as the lane accumulators start from it. -/
private theorem ofBits_zero : FloatOps.ofBits (F := Ideal) .f32 0x00000000#32 = (0 : EReal) := Ideal.ofBits_zero_f32
private theorem zero_at' {s : Shape} (i : s.Idx) :
    (broadcast s (FloatOps.ofBits (F := Ideal) .f32 0x00000000#32) : FVec Ideal s .f32) i = (0 : EReal) := by
  unfold broadcast; exact ofBits_zero

/-- The block counts at the class word of lane `l < 19` are the block counts for class `l`. -/
private theorem cntW_eq (X : IVec S2x1024x1024 32) (l : Fin 128) (hl : l.val < 19) :
    cntW X (BitVec.ofNat 32 l.val) = cntB X ⟨l.val, hl⟩ := by
  unfold cntW cntB
  exact Finset.sum_congr rfl fun b _ => rfl
private theorem agrW_eq (X0 X1 : IVec S2x1024x1024 32) (l : Fin 128) (hl : l.val < 19) :
    agrW X0 X1 (BitVec.ofNat 32 l.val) = agrB X0 X1 ⟨l.val, hl⟩ := by
  unfold agrW agrB
  exact Finset.sum_congr rfl fun b _ => rfl

/-- ROW 2. The nineteen agreement counts, each added into its class's lane through the one-hot mask, then the row
    update: lane `l < 19` of what is stored is the row's old lane plus the block's agreement count for class `l`. -/
private theorem row2_apply (x0 x1 : Vec Ideal S2x1024x1024 .i32) (old : Vec Ideal S1x1x128 .f32) (l : Fin 128) (hl : l.val < 19) :
    k0_pay2 (k0_pay109 x1 (k0_pay4 x0 x1) (iota Kind.tc S1x128 32 [1] iota_S1x128_d1_w32) (k0_pay100 (k0_pay4 x0 x1) (iota Kind.tc S1x128 32 [1] iota_S1x128_d1_w32) (k0_pay94 (k0_pay4 x0 x1) (iota Kind.tc S1x128 32 [1] iota_S1x128_d1_w32) (k0_pay89 x1 (k0_pay4 x0 x1) (iota Kind.tc S1x128 32 [1] iota_S1x128_d1_w32) (k0_pay79 (k0_pay4 x0 x1) (iota Kind.tc S1x128 32 [1] iota_S1x128_d1_w32) (k0_pay72 x1 (k0_pay4 x0 x1) (iota Kind.tc S1x128 32 [1] iota_S1x128_d1_w32) (k0_pay62 (k0_pay4 x0 x1) (iota Kind.tc S1x128 32 [1] iota_S1x128_d1_w32) (k0_pay55 x1 (k0_pay4 x0 x1) (iota Kind.tc S1x128 32 [1] iota_S1x128_d1_w32) (k0_pay45 (k0_pay4 x0 x1) (iota Kind.tc S1x128 32 [1] iota_S1x128_d1_w32) (k0_pay39 (k0_pay4 x0 x1) (iota Kind.tc S1x128 32 [1] iota_S1x128_d1_w32) (k0_pay34 x1 (k0_pay4 x0 x1) (iota Kind.tc S1x128 32 [1] iota_S1x128_d1_w32) (k0_pay24 (k0_pay4 x0 x1) (iota Kind.tc S1x128 32 [1] iota_S1x128_d1_w32) (k0_pay17 x1 (k0_pay4 x0 x1) (iota Kind.tc S1x128 32 [1] iota_S1x128_d1_w32) k0_pay7 (k0_pay10 x0 x1) k0_pay11) (k0_pay18 x1)) (k0_pay28 x1 (k0_pay4 x0 x1))) (k0_pay35 x1)) (k0_pay43 x1)) (k0_pay47 (iota Kind.tc S1x128 32 [1] iota_S1x128_d1_w32)) (k0_pay50 x1 (k0_pay4 x0 x1))) (k0_pay56 x1)) (k0_pay65 x1 (k0_pay4 x0 x1)) (k0_pay66 (iota Kind.tc S1x128 32 [1] iota_S1x128_d1_w32))) (k0_pay73 x1)) (k0_pay83 x1 (k0_pay4 x0 x1))) (k0_pay90 x1)) (k0_pay98 x1)) (k0_pay102 (iota Kind.tc S1x128 32 [1] iota_S1x128_d1_w32)) (k0_pay105 x1 (k0_pay4 x0 x1))) old (ix3 (0 : Fin 1) (0 : Fin 1) l)
      = old (ix3 (0 : Fin 1) (0 : Fin 1) l) + agrB x0 x1 ⟨l.val, hl⟩ := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110]
  refine (row_store_apply _ _ _ _ _ l).trans ?_
  simp only [addf_at, mulf_at, zero_at, zero_at', broadcast_at, sel_at]
  rw [iota_lane, ofBits_zero]
  rw [agree_total x0 x1 0#32, agree_total x0 x1 1#32, agree_total x0 x1 2#32, agree_total x0 x1 3#32, agree_total x0 x1 4#32, agree_total x0 x1 5#32, agree_total x0 x1 6#32, agree_total x0 x1 7#32, agree_total x0 x1 8#32, agree_total x0 x1 9#32, agree_total x0 x1 10#32, agree_total x0 x1 11#32, agree_total x0 x1 12#32, agree_total x0 x1 13#32, agree_total x0 x1 14#32, agree_total x0 x1 15#32, agree_total x0 x1 16#32, agree_total x0 x1 17#32, agree_total x0 x1 18#32]
  rw [onehot l hl (agrW x0 x1), agrW_eq x0 x1 l hl]

/-- ROW 1: the same with the counts of the true labels. -/
private theorem row1_apply (x1 : Vec Ideal S2x1024x1024 .i32) (old : Vec Ideal S1x1x128 .f32) (l : Fin 128) (hl : l.val < 19) :
    k0_pay1 (k0_pay108 x1 (iota Kind.tc S1x128 32 [1] iota_S1x128_d1_w32) (k0_pay104 x1 (iota Kind.tc S1x128 32 [1] iota_S1x128_d1_w32) (k0_pay93 (iota Kind.tc S1x128 32 [1] iota_S1x128_d1_w32) (k0_pay88 x1 (iota Kind.tc S1x128 32 [1] iota_S1x128_d1_w32) (k0_pay78 (iota Kind.tc S1x128 32 [1] iota_S1x128_d1_w32) (k0_pay71 x1 (iota Kind.tc S1x128 32 [1] iota_S1x128_d1_w32) (k0_pay61 (iota Kind.tc S1x128 32 [1] iota_S1x128_d1_w32) (k0_pay54 x1 (iota Kind.tc S1x128 32 [1] iota_S1x128_d1_w32) (k0_pay49 x1 (iota Kind.tc S1x128 32 [1] iota_S1x128_d1_w32) (k0_pay38 (iota Kind.tc S1x128 32 [1] iota_S1x128_d1_w32) (k0_pay33 x1 (iota Kind.tc S1x128 32 [1] iota_S1x128_d1_w32) (k0_pay23 (iota Kind.tc S1x128 32 [1] iota_S1x128_d1_w32) (k0_pay16 x1 (iota Kind.tc S1x128 32 [1] iota_S1x128_d1_w32) k0_pay6 (k0_pay9 x1) k0_pay11) (k0_pay20 x1)) (k0_pay26 x1)) (k0_pay35 x1)) (k0_pay41 x1))) (k0_pay57 x1)) (k0_pay64 x1) (k0_pay66 (iota Kind.tc S1x128 32 [1] iota_S1x128_d1_w32))) (k0_pay75 x1)) (k0_pay81 x1)) (k0_pay90 x1)) (k0_pay96 x1))) old (ix3 (0 : Fin 1) (0 : Fin 1) l)
      = old (ix3 (0 : Fin 1) (0 : Fin 1) l) + cntB x1 ⟨l.val, hl⟩ := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110]
  refine (row_store_apply _ _ _ _ _ l).trans ?_
  simp only [addf_at, mulf_at, zero_at, zero_at', broadcast_at, sel_at]
  rw [iota_lane, ofBits_zero]
  rw [count_total x1 0#32, count_total x1 1#32, count_total x1 2#32, count_total x1 3#32, count_total x1 4#32, count_total x1 5#32, count_total x1 6#32, count_total x1 7#32, count_total x1 8#32, count_total x1 9#32, count_total x1 10#32, count_total x1 11#32, count_total x1 12#32, count_total x1 13#32, count_total x1 14#32, count_total x1 15#32, count_total x1 16#32, count_total x1 17#32, count_total x1 18#32]
  rw [onehot l hl (cntW x1), cntW_eq x1 l hl]

/-- ROW 0: the same with the counts of the predicted labels (the last class's step is part of the row update itself). -/
private theorem row0_apply (x0 : Vec Ideal S2x1024x1024 .i32) (old : Vec Ideal S1x1x128 .f32) (l : Fin 128) (hl : l.val < 19) :
    k0_pay110 x0 (iota Kind.tc S1x128 32 [1] iota_S1x128_d1_w32) (k0_pay103 x0 (iota Kind.tc S1x128 32 [1] iota_S1x128_d1_w32) (k0_pay92 x0 (iota Kind.tc S1x128 32 [1] iota_S1x128_d1_w32) (k0_pay87 x0 (iota Kind.tc S1x128 32 [1] iota_S1x128_d1_w32) (k0_pay77 (iota Kind.tc S1x128 32 [1] iota_S1x128_d1_w32) (k0_pay70 x0 (iota Kind.tc S1x128 32 [1] iota_S1x128_d1_w32) (k0_pay60 (iota Kind.tc S1x128 32 [1] iota_S1x128_d1_w32) (k0_pay53 x0 (iota Kind.tc S1x128 32 [1] iota_S1x128_d1_w32) (k0_pay48 x0 (iota Kind.tc S1x128 32 [1] iota_S1x128_d1_w32) (k0_pay37 x0 (iota Kind.tc S1x128 32 [1] iota_S1x128_d1_w32) (k0_pay32 x0 (iota Kind.tc S1x128 32 [1] iota_S1x128_d1_w32) (k0_pay22 (iota Kind.tc S1x128 32 [1] iota_S1x128_d1_w32) (k0_pay15 x0 (iota Kind.tc S1x128 32 [1] iota_S1x128_d1_w32) k0_pay5 k0_pay11 (k0_pay12 x0)) (k0_pay19 x0)) (k0_pay27 x0)) 5#32) (k0_pay42 x0))) (k0_pay58 x0)) (k0_pay66 (iota Kind.tc S1x128 32 [1] iota_S1x128_d1_w32)) (k0_pay67 x0)) (k0_pay74 x0)) (k0_pay82 x0)) 15#32) (k0_pay97 x0)) old (ix3 (0 : Fin 1) (0 : Fin 1) l)
      = old (ix3 (0 : Fin 1) (0 : Fin 1) l) + cntB x0 ⟨l.val, hl⟩ := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110]
  refine (row_store_apply _ _ _ _ _ l).trans ?_
  simp only [addf_at, mulf_at, zero_at, zero_at', broadcast_at, sel_at]
  rw [iota_lane, ofBits_zero]
  rw [count_total x0 0#32, count_total x0 1#32, count_total x0 2#32, count_total x0 3#32, count_total x0 4#32, count_total x0 5#32, count_total x0 6#32, count_total x0 7#32, count_total x0 8#32, count_total x0 9#32, count_total x0 10#32, count_total x0 11#32, count_total x0 12#32, count_total x0 13#32, count_total x0 14#32, count_total x0 15#32, count_total x0 16#32, count_total x0 17#32, count_total x0 18#32]
  rw [onehot l hl (cntW x0), cntW_eq x0 l hl]

/-- A whole-block load of a block's staging buffer reads the block. -/
private theorem load_whole {a : Memref sig .tc .vmem S2x1024x1024 .i32} (h : a.IsWhole) (x : Vec Ideal S2x1024x1024 .i32)
    (inb : ∀ a, (![0, 0, 0] : Fin 3 → Nat) a + S2x1024x1024.size a ≤ S2x1024x1024.size a) :
    View.readAt (Elt Ideal) a.view (Rect.unit (s := S2x1024x1024) ![0, 0, 0] S2x1024x1024.size inb).toLoadRect (h.unread x) = x := by
  rw [View.readAt_eq_ld, h.read_unread, View.ld_unit_zero hz3]

/-- A one-row load of the accumulator holding `xs0` reads that row of `xs0`. -/
private theorem row_load2 {a5 : Memref sig .tc .vmem S1x3x128 .f32} (h5 : a5.IsWhole) (xs0 : Vec Ideal S1x3x128 .f32)
    (inb2 : ∀ a, (![0, 2, 0] : Fin 3 → Nat) a + (![1, 1, 128] : Fin 3 → Nat) a ≤ S1x3x128.size a) (l : Fin 128) :
    View.readAt (Elt Ideal) a5.view (Rect.unit (s := S1x3x128) ![0, 2, 0] ![1, 1, 128] inb2).toLoadRect (h5.unread xs0)
        (ix3 (0 : Fin 1) (0 : Fin 1) l) = xs0 (ix3 (0 : Fin 1) (2 : Fin 3) l) := by
  rw [View.readAt_eq_ld, h5.read_unread]
  exact congrArg xs0 (row_idx2 inb2 l).symm
private theorem row_load1 {a5 : Memref sig .tc .vmem S1x3x128 .f32} (h5 : a5.IsWhole) (xs0 : Vec Ideal S1x3x128 .f32)
    (inb1 : ∀ a, (![0, 1, 0] : Fin 3 → Nat) a + (![1, 1, 128] : Fin 3 → Nat) a ≤ S1x3x128.size a) (l : Fin 128) :
    View.readAt (Elt Ideal) a5.view (Rect.unit (s := S1x3x128) ![0, 1, 0] ![1, 1, 128] inb1).toLoadRect (h5.unread xs0)
        (ix3 (0 : Fin 1) (0 : Fin 1) l) = xs0 (ix3 (0 : Fin 1) (1 : Fin 3) l) := by
  rw [View.readAt_eq_ld, h5.read_unread]
  exact congrArg xs0 (row_idx1 inb1 l).symm
private theorem row_load0 {a5 : Memref sig .tc .vmem S1x3x128 .f32} (h5 : a5.IsWhole) (xs0 : Vec Ideal S1x3x128 .f32)
    (inb0 : ∀ a, (![0, 0, 0] : Fin 3 → Nat) a + S1x1x128.size a ≤ S1x3x128.size a) (l : Fin 128) :
    View.readAt (Elt Ideal) a5.view (Rect.unit (s := S1x3x128) ![0, 0, 0] S1x1x128.size inb0).toLoadRect (h5.unread xs0)
        (ix3 (0 : Fin 1) (0 : Fin 1) l) = xs0 (ix3 (0 : Fin 1) (0 : Fin 3) l) := by
  rw [View.readAt_eq_ld, h5.read_unread]
  exact congrArg xs0 (row_idx0 inb0 l).symm

/-- The reset stores zero everywhere. -/
private theorem pay3_apply (j : S1x3x128.Idx) : (k0_pay3 : FVec Ideal S1x3x128 .f32) j = (0 : EReal) := by
  simp only [k0_pay3, shapeCast_self]
  exact zero_at j

/-- After the reset, a one-row load of the accumulator made before that row's update (rows below it may have been
    updated already) reads zero. -/
private theorem old0_zero {sg : RefSig} {κ : Kind} {sp : Space} (v : View sg κ sp S1x3x128 .f32)
    (inbw : ∀ a, (![0, 0, 0] : Fin 3 → Nat) a + S1x3x128.size a ≤ S1x3x128.size a)
    (inb0 : ∀ a, (![0, 0, 0] : Fin 3 → Nat) a + S1x1x128.size a ≤ S1x3x128.size a) (l : Fin 128) :
    v.readCov (Val := Elt Ideal) [⟨Rect.unit (s := S1x3x128) ![0, 0, 0] S1x3x128.size inbw, (k0_pay3 (F := Ideal))⟩]
        (Rect.unit (s := S1x3x128) ![0, 0, 0] S1x1x128.size inb0).toLoadRect (ix3 (0 : Fin 1) (0 : Fin 1) l) = (0 : EReal) := by
  rw [View.readCov_eq_canon']
  show View.canon _ ((Rect.unit (s := S1x3x128) ![0, 0, 0] S1x1x128.size inb0).emb (ix3 (0 : Fin 1) (0 : Fin 1) l)) = 0
  rw [← row_idx0 inb0 l, View.canon_unit_zero (S := S1x3x128) hz3]
  exact pay3_apply _
private theorem old1_zero {sg : RefSig} {κ : Kind} {sp : Space} (v : View sg κ sp S1x3x128 .f32) (w0 : S1x1x128.Idx → Elt Ideal .f32)
    (inbw : ∀ a, (![0, 0, 0] : Fin 3 → Nat) a + S1x3x128.size a ≤ S1x3x128.size a)
    (inb0 : ∀ a, (![0, 0, 0] : Fin 3 → Nat) a + S1x1x128.size a ≤ S1x3x128.size a)
    (inb1 : ∀ a, (![0, 1, 0] : Fin 3 → Nat) a + (![1, 1, 128] : Fin 3 → Nat) a ≤ S1x3x128.size a) (l : Fin 128) :
    v.readCov (Val := Elt Ideal) [⟨Rect.unit (s := S1x3x128) ![0, 0, 0] S1x1x128.size inb0, w0⟩, ⟨Rect.unit (s := S1x3x128) ![0, 0, 0] S1x3x128.size inbw, (k0_pay3 (F := Ideal))⟩]
        (Rect.unit (s := S1x3x128) ![0, 1, 0] ![1, 1, 128] inb1).toLoadRect (ix3 (0 : Fin 1) (0 : Fin 1) l) = (0 : EReal) := by
  rw [View.readCov_eq_canon']
  show View.canon _ ((Rect.unit (s := S1x3x128) ![0, 1, 0] ![1, 1, 128] inb1).emb (ix3 (0 : Fin 1) (0 : Fin 1) l)) = 0
  rw [← row_idx1 inb1 l]
  rw [View.canon_cons_of_not_mem _ _ (by
    rw [Rect.mem_set_unit]; intro hm; have h : (1 : ℕ) < 0 + 1 := (hm 1).2; omega)]
  rw [View.canon_unit_zero (S := S1x3x128) hz3]
  exact pay3_apply _
private theorem old2_zero {sg : RefSig} {κ : Kind} {sp : Space} (v : View sg κ sp S1x3x128 .f32) (w1 w0 : S1x1x128.Idx → Elt Ideal .f32)
    (inbw : ∀ a, (![0, 0, 0] : Fin 3 → Nat) a + S1x3x128.size a ≤ S1x3x128.size a)
    (inb0 : ∀ a, (![0, 0, 0] : Fin 3 → Nat) a + S1x1x128.size a ≤ S1x3x128.size a)
    (inb1 : ∀ a, (![0, 1, 0] : Fin 3 → Nat) a + (![1, 1, 128] : Fin 3 → Nat) a ≤ S1x3x128.size a)
    (inb2 : ∀ a, (![0, 2, 0] : Fin 3 → Nat) a + (![1, 1, 128] : Fin 3 → Nat) a ≤ S1x3x128.size a) (l : Fin 128) :
    v.readCov (Val := Elt Ideal) [⟨Rect.unit (s := S1x3x128) ![0, 1, 0] ![1, 1, 128] inb1, w1⟩, ⟨Rect.unit (s := S1x3x128) ![0, 0, 0] S1x1x128.size inb0, w0⟩,
          ⟨Rect.unit (s := S1x3x128) ![0, 0, 0] S1x3x128.size inbw, (k0_pay3 (F := Ideal))⟩]
        (Rect.unit (s := S1x3x128) ![0, 2, 0] ![1, 1, 128] inb2).toLoadRect (ix3 (0 : Fin 1) (0 : Fin 1) l) = (0 : EReal) := by
  rw [View.readCov_eq_canon']
  show View.canon _ ((Rect.unit (s := S1x3x128) ![0, 2, 0] ![1, 1, 128] inb2).emb (ix3 (0 : Fin 1) (0 : Fin 1) l)) = 0
  rw [← row_idx2 inb2 l]
  rw [View.canon_cons_of_not_mem _ _ (by
    rw [Rect.mem_set_unit]; intro hm; have h : (2 : ℕ) < 1 + 1 := (hm 1).2; omega)]
  rw [View.canon_cons_of_not_mem _ _ (by
    rw [Rect.mem_set_unit]; intro hm; have h : (2 : ℕ) < 0 + 1 := (hm 1).2; omega)]
  rw [View.canon_unit_zero (S := S1x3x128) hz3]
  exact pay3_apply _

/-- A whole-buffer load after a list of stores reads what the stores leave. -/
private theorem readCov_whole {sg : RefSig} {κ : Kind} {sp : Space} {S : Shape} {e : EltTy} (v : View sg κ sp S e)
    (L : List (View.Piece (Elt Ideal) S e)) {off : Fin S.rank → Nat} (h : off = fun _ => 0)
    (inb : ∀ a, off a + S.size a ≤ S.size a) :
    v.readCov L (Rect.unit off S.size inb).toLoadRect = View.canon L := by
  subst h
  rw [View.readCov_eq_canon']
  funext x
  show View.canon L ((Rect.whole S).emb x) = _
  rw [Rect.emb_whole_apply]

/-- A continuing point: the accumulator, holding `xs0`, ends with lane `l < 19` of row `r` raised by the block's count. -/
theorem sout_B_apply (c : Dev nD) (i : grid0.Coords) (a2 : Memref sig .tc .vmem S2x1024x1024 .i32) (h2 : a2.IsWhole)
    (a3 : Memref sig .tc .vmem S2x1024x1024 .i32) (h3 : a3.IsWhole) (a4 : Memref sig .tc .vmem S1x3x128 .f32) (h4 : a4.IsWhole)
    (a5 : Memref sig .tc .vmem S1x3x128 .f32) (h5 : a5.IsWhole) (hc : ¬cond0_0 i)
    (x0 x1 : Vec Ideal S2x1024x1024 .i32) (xs0 : Vec Ideal S1x3x128 .f32) (r : Fin 3) (l : Fin 128) (hl : l.val < 19) :
    sout0_B_0 (F := Ideal) c i a2 h2 a3 h3 a4 h4 a5 h5 hc x0 x1 xs0 (ix3 (0 : Fin 1) r l)
      = xs0 (ix3 (0 : Fin 1) r l) + rowCnt r x0 x1 ⟨l.val, hl⟩ := by
  unfold sout0_B_0
  rw [View.read_writes_eq_canon _ _ _ (scover0_B_0 c i a2 h2 a3 h3 a4 h4 a5 h5 hc x0 x1 xs0)]
  unfold kernelRun0_B
  dsimp only
  sl_unfold_words
  rw [load_whole h2 x0, load_whole h3 x1]
  refine (canon_rows _ _ _ [] _ _ _ r l).trans ?_
  match r with
  | ⟨2, _⟩ =>
    dsimp only
    refine (row2_apply x0 x1 _ l hl).trans ?_
    exact congrArg (· + agrB x0 x1 ⟨l.val, hl⟩) (row_load2 h5 xs0 _ l)
  | ⟨1, _⟩ =>
    dsimp only
    refine (row1_apply x1 _ l hl).trans ?_
    exact congrArg (· + cntB x1 ⟨l.val, hl⟩) (row_load1 h5 xs0 _ l)
  | ⟨0, _⟩ =>
    dsimp only
    refine (row0_apply x0 _ l hl).trans ?_
    exact congrArg (· + cntB x0 ⟨l.val, hl⟩) (row_load0 h5 xs0 _ l)

/-- and the output block holds the same. -/
theorem out_B_apply (c : Dev nD) (i : grid0.Coords) (a2 : Memref sig .tc .vmem S2x1024x1024 .i32) (h2 : a2.IsWhole)
    (a3 : Memref sig .tc .vmem S2x1024x1024 .i32) (h3 : a3.IsWhole) (a4 : Memref sig .tc .vmem S1x3x128 .f32) (h4 : a4.IsWhole)
    (a5 : Memref sig .tc .vmem S1x3x128 .f32) (h5 : a5.IsWhole) (hc : ¬cond0_0 i)
    (x0 x1 : Vec Ideal S2x1024x1024 .i32) (xs0 : Vec Ideal S1x3x128 .f32) (r : Fin 3) (l : Fin 128) (hl : l.val < 19) :
    out0_B_2 (F := Ideal) c i a2 h2 a3 h3 a4 h4 a5 h5 hc x0 x1 xs0 (ix3 (0 : Fin 1) r l)
      = xs0 (ix3 (0 : Fin 1) r l) + rowCnt r x0 x1 ⟨l.val, hl⟩ := by
  refine Eq.trans ?_ (sout_B_apply c i a2 h2 a3 h3 a4 h4 a5 h5 hc x0 x1 xs0 r l hl)
  unfold out0_B_2 sout0_B_0
  rw [View.read_writes_eq_canon _ _ _ (cover0_B_2 c i a2 h2 a3 h3 a4 h4 a5 h5 hc x0 x1 xs0),
    View.read_writes_eq_canon _ _ _ (scover0_B_0 c i a2 h2 a3 h3 a4 h4 a5 h5 hc x0 x1 xs0)]
  unfold kernelRun0_B
  dsimp only
  sl_unfold_words
  rw [View.canon_unit_zero (S := S1x3x128) hz3, readCov_whole (S := S1x3x128) _ _ hz3]

/-- A group's first point: the accumulator is reset, so it ends at the block's count alone. -/
theorem sout_A_apply (c : Dev nD) (i : grid0.Coords) (a2 : Memref sig .tc .vmem S2x1024x1024 .i32) (h2 : a2.IsWhole)
    (a3 : Memref sig .tc .vmem S2x1024x1024 .i32) (h3 : a3.IsWhole) (a4 : Memref sig .tc .vmem S1x3x128 .f32) (h4 : a4.IsWhole)
    (a5 : Memref sig .tc .vmem S1x3x128 .f32) (h5 : a5.IsWhole) (hc : cond0_0 i)
    (x0 x1 : Vec Ideal S2x1024x1024 .i32) (r : Fin 3) (l : Fin 128) (hl : l.val < 19) :
    sout0_A_0 (F := Ideal) c i a2 h2 a3 h3 a4 h4 a5 h5 hc x0 x1 (ix3 (0 : Fin 1) r l)
      = rowCnt r x0 x1 ⟨l.val, hl⟩ := by
  unfold sout0_A_0
  rw [View.read_writes_eq_canon _ _ _ (scover0_A_0 c i a2 h2 a3 h3 a4 h4 a5 h5 hc x0 x1)]
  unfold kernelRun0_A
  dsimp only
  sl_unfold_words
  rw [load_whole h2 x0, load_whole h3 x1]
  refine (canon_rows _ _ _ _ _ _ _ r l).trans ?_
  match r with
  | ⟨2, _⟩ =>
    dsimp only
    refine (row2_apply x0 x1 _ l hl).trans ?_
    refine (congrArg (· + agrB x0 x1 ⟨l.val, hl⟩) (old2_zero _ _ _ _ _ _ _ l)).trans ?_
    exact zero_add _
  | ⟨1, _⟩ =>
    dsimp only
    refine (row1_apply x1 _ l hl).trans ?_
    refine (congrArg (· + cntB x1 ⟨l.val, hl⟩) (old1_zero _ _ _ _ _ l)).trans ?_
    exact zero_add _
  | ⟨0, _⟩ =>
    dsimp only
    refine (row0_apply x0 _ l hl).trans ?_
    refine (congrArg (· + cntB x0 ⟨l.val, hl⟩) (old0_zero _ _ _ l)).trans ?_
    exact zero_add _

/-- and the output block holds the same. -/
theorem out_A_apply (c : Dev nD) (i : grid0.Coords) (a2 : Memref sig .tc .vmem S2x1024x1024 .i32) (h2 : a2.IsWhole)
    (a3 : Memref sig .tc .vmem S2x1024x1024 .i32) (h3 : a3.IsWhole) (a4 : Memref sig .tc .vmem S1x3x128 .f32) (h4 : a4.IsWhole)
    (a5 : Memref sig .tc .vmem S1x3x128 .f32) (h5 : a5.IsWhole) (hc : cond0_0 i)
    (x0 x1 : Vec Ideal S2x1024x1024 .i32) (r : Fin 3) (l : Fin 128) (hl : l.val < 19) :
    out0_A_2 (F := Ideal) c i a2 h2 a3 h3 a4 h4 a5 h5 hc x0 x1 (ix3 (0 : Fin 1) r l)
      = rowCnt r x0 x1 ⟨l.val, hl⟩ := by
  refine Eq.trans ?_ (sout_A_apply c i a2 h2 a3 h3 a4 h4 a5 h5 hc x0 x1 r l hl)
  unfold out0_A_2 sout0_A_0
  rw [View.read_writes_eq_canon _ _ _ (cover0_A_2 c i a2 h2 a3 h3 a4 h4 a5 h5 hc x0 x1),
    View.read_writes_eq_canon _ _ _ (scover0_A_0 c i a2 h2 a3 h3 a4 h4 a5 h5 hc x0 x1)]
  unfold kernelRun0_A
  dsimp only
  sl_unfold_words
  rw [View.canon_unit_zero (S := S1x3x128) hz3, readCov_whole (S := S1x3x128) _ _ hz3]

end Cert.KernelIdeal.BodyValue

end
-- ==== Proof.KAcc.lean ====
/-
  The accumulator across the grid. The eight grid points come in two groups of four; point `t` reads block `t` of each
  label map. Within a group the accumulator is reset at the first point and then grows by each point's block counts, so
  after point `t` lane `l < 19` of row `r` holds the sum of the block counts of the group's points up to `t` — by
  induction on the point, one case per kind of point.
-/
import proofs.«410929_j54176717472355_1_alg».proof.Proof.KBody

noncomputable section

namespace Cert.KernelIdeal.AccValue

open Cert.KernelIdeal Cert.KernelIdeal.Gen Idealize.ShloMosaic Idealize.ShloMosaic.TcCoe Idealize.SL.Sem
open Idealize.ShloMosaic.ValueIdx Cert.Hist
open Idealize.ShloMosaic.Pipeline (Dat)

variable (m : (ℓ : Loc nD τ sig) → Buf (Elt Ideal) ℓ)

/-- The two label maps as the program finds them, and their blocks at a grid point, at their literal types. -/
abbrev parr (c : Dev nD) : IVec SA 32 := m ((c : Thread nD τ).loc main_arg0)
abbrev yarr (c : Dev nD) : IVec SA 32 := m ((c : Thread nD τ).loc main_arg1)
abbrev pblk (c : Dev nD) (t : Fin cfg0.N) : Vec Ideal S2x1024x1024 .i32 := iblk m c 0 t
abbrev yblk (c : Dev nD) (t : Fin cfg0.N) : Vec Ideal S2x1024x1024 .i32 := iblk m c 1 t

theorem lt8 (t : Fin cfg0.N) : t.val < 8 := lt_of_lt_of_eq t.isLt (show cfg0.N = 8 from N_0)

/-- Where each input window sits at point `t`: its index along the first axis is the point's own number, and 0 along
    the other two (the index map sends point `(h, s)` to `4h + s`; decided over the eight points). -/
theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- The window's block at point `t` is block `t` of the map: its index map sends point `(h, s)` to `4h + s`. -/
theorem pblk_eq (c : Dev nD) (t : Fin cfg0.N) : pblk m c t = blockOf (parr m c) ⟨t.val, lt8 t⟩ := by
  funext y
  show ((cfg0.win 0).blk t).view.read (Elt Ideal) (V m c (Pipeline.arrRef spec0 0)) y = _
  rw [View.read_apply]
  show V m c main_arg0 _ = m ((c : Thread nD τ).loc main_arg0) _
  unfold V
  congr 1
  funext a
  apply Fin.ext
  obtain ⟨h0, h1, h2⟩ := idx0 t
  -- entry `y` of the block sits at (index × block extent + y) along each axis
  match a with
  | ⟨0, _⟩ => show win0_0.index t 0 * 2 + 1 * (y 0).val = 2 * t.val + (y 0).val; rw [h0]; omega
  | ⟨1, _⟩ => show win0_0.index t 1 * 1024 + 1 * (y 1).val = (y 1).val; rw [h1]; omega
  | ⟨2, _⟩ => show win0_0.index t 2 * 1024 + 1 * (y 2).val = (y 2).val; rw [h2]; omega
theorem yblk_eq (c : Dev nD) (t : Fin cfg0.N) : yblk m c t = blockOf (yarr m c) ⟨t.val, lt8 t⟩ := by
  funext y
  show ((cfg0.win 1).blk t).view.read (Elt Ideal) (V m c (Pipeline.arrRef spec0 1)) y = _
  rw [View.read_apply]
  show V m c main_arg1 _ = m ((c : Thread nD τ).loc main_arg1) _
  unfold V
  congr 1
  funext a
  apply Fin.ext
  obtain ⟨h0, h1, h2⟩ := idx1 t
  match a with
  | ⟨0, _⟩ => show win0_1.index t 0 * 2 + 1 * (y 0).val = 2 * t.val + (y 0).val; rw [h0]; omega
  | ⟨1, _⟩ => show win0_1.index t 1 * 1024 + 1 * (y 1).val = (y 1).val; rw [h1]; omega
  | ⟨2, _⟩ => show win0_1.index t 2 * 1024 + 1 * (y 2).val = (y 2).val; rw [h2]; omega

/-- What block `n` contributes to lane `i` of row `r` (nothing beyond the eight blocks). -/
def rc (c : Dev nD) (r : Fin 3) (i : Fin 19) (n : ℕ) : EReal :=
  if h : n < 8 then rowCnt r (blockOf (parr m c) ⟨n, h⟩) (blockOf (yarr m c) ⟨n, h⟩) i else 0

/-- The running total of `f` within groups of four: restarted at every multiple of four. -/
def run4 (f : ℕ → EReal) : ℕ → EReal
  | 0 => f 0
  | n + 1 => if (n + 1) % 4 = 0 then f (n + 1) else run4 f n + f (n + 1)

/-- The count the blocks read at point `t` contribute is block `t`'s. -/
theorem rowCnt_blk (c : Dev nD) (r : Fin 3) (i : Fin 19) (t : Fin cfg0.N) :
    rowCnt r (pblk m c t) (yblk m c t) i = rc m c r i t.val := by
  rw [pblk_eq, yblk_eq]
  unfold rc
  rw [dif_pos (lt8 t)]

/-- A group's first point leaves the block's count alone in both the output block and the accumulator. -/
theorem first_apply (c : Dev nD) (r : Fin 3) (l : Fin 128) (hl : l.val < 19) (t : Fin cfg0.N) (h0 : t.val % 4 = 0) :
    (outsAt0 m c t.val t.isLt).1 (ix3 (0 : Fin 1) r l) = rc m c r ⟨l.val, hl⟩ t.val
    ∧ (outsAt0 m c t.val t.isLt).2 (ix3 (0 : Fin 1) r l) = rc m c r ⟨l.val, hl⟩ t.val := by
  rw [outsAt0_A m c t h0]
  dsimp only
  exact ⟨(BodyValue.out_A_apply c (grid0.coords t) (ms0_0 t) (hs0_0 t) (ms0_1 t) (hs0_1 t) (ms0_2 t) (hs0_2 t) scM0_0
      (Memref.isWhole_whole _) ((hcond0_0 t).mpr h0) (pblk m c t) (yblk m c t) r l hl).trans (rowCnt_blk m c r _ t),
    (BodyValue.sout_A_apply c (grid0.coords t) (ms0_0 t) (hs0_0 t) (ms0_1 t) (hs0_1 t) (ms0_2 t) (hs0_2 t) scM0_0
      (Memref.isWhole_whole _) ((hcond0_0 t).mpr h0) (pblk m c t) (yblk m c t) r l hl).trans (rowCnt_blk m c r _ t)⟩

/-- Any other point adds the block's count to what the point before left in the accumulator. -/
theorem next_apply (c : Dev nD) (r : Fin 3) (l : Fin 128) (hl : l.val < 19) (t : Fin cfg0.N) (h0 : ¬t.val % 4 = 0) :
    (outsAt0 m c t.val t.isLt).1 (ix3 (0 : Fin 1) r l)
      = (outsAt0 m c (t.val - 1) (Nat.lt_of_le_of_lt (Nat.sub_le _ _) t.isLt)).2 (ix3 (0 : Fin 1) r l) + rc m c r ⟨l.val, hl⟩ t.val
    ∧ (outsAt0 m c t.val t.isLt).2 (ix3 (0 : Fin 1) r l)
      = (outsAt0 m c (t.val - 1) (Nat.lt_of_le_of_lt (Nat.sub_le _ _) t.isLt)).2 (ix3 (0 : Fin 1) r l) + rc m c r ⟨l.val, hl⟩ t.val := by
  rw [outsAt0_B m c t h0]
  dsimp only
  exact ⟨(BodyValue.out_B_apply c (grid0.coords t) (ms0_0 t) (hs0_0 t) (ms0_1 t) (hs0_1 t) (ms0_2 t) (hs0_2 t) scM0_0
      (Memref.isWhole_whole _) (fun h => h0 ((hcond0_0 t).mp h)) (pblk m c t) (yblk m c t)
      (outsAt0 m c (t.val - 1) (Nat.lt_of_le_of_lt (Nat.sub_le _ _) t.isLt)).2 r l hl).trans
        (congrArg (_ + ·) (rowCnt_blk m c r _ t)),
    (BodyValue.sout_B_apply c (grid0.coords t) (ms0_0 t) (hs0_0 t) (ms0_1 t) (hs0_1 t) (ms0_2 t) (hs0_2 t) scM0_0
      (Memref.isWhole_whole _) (fun h => h0 ((hcond0_0 t).mp h)) (pblk m c t) (yblk m c t)
      (outsAt0 m c (t.val - 1) (Nat.lt_of_le_of_lt (Nat.sub_le _ _) t.isLt)).2 r l hl).trans
        (congrArg (_ + ·) (rowCnt_blk m c r _ t))⟩

/-- After point `n` both the output block and the accumulator hold, at lane `l < 19` of row `r`, the running total
    of the block counts of `n`'s group. -/
theorem outsAt_apply (c : Dev nD) (r : Fin 3) (l : Fin 128) (hl : l.val < 19) (n : ℕ) (hn : n < cfg0.N) :
    (outsAt0 m c n hn).1 (ix3 (0 : Fin 1) r l) = run4 (rc m c r ⟨l.val, hl⟩) n
    ∧ (outsAt0 m c n hn).2 (ix3 (0 : Fin 1) r l) = run4 (rc m c r ⟨l.val, hl⟩) n := by
  induction n with
  | zero => exact first_apply m c r l hl ⟨0, hn⟩ rfl
  | succ n ih =>
    by_cases h0 : (n + 1) % 4 = 0
    · have e : run4 (rc m c r ⟨l.val, hl⟩) (n + 1) = rc m c r ⟨l.val, hl⟩ (n + 1) := if_pos h0
      rw [e]
      exact first_apply m c r l hl ⟨n + 1, hn⟩ h0
    · have e : run4 (rc m c r ⟨l.val, hl⟩) (n + 1)
          = run4 (rc m c r ⟨l.val, hl⟩) n + rc m c r ⟨l.val, hl⟩ (n + 1) := if_neg h0
      rw [e, ← (ih (Nat.lt_of_succ_lt hn)).2]
      exact next_apply m c r l hl ⟨n + 1, hn⟩ h0

end Cert.KernelIdeal.AccValue

end
-- ==== Proof.KFinal.lean ====
/-
  The result array of the region. The output window's block index is the group number `h`, so the block is written back
  once per group, after the group's last point (points 3 and 7), and the two write-backs cover the array. Hence entry
  `(h, r, l)` of the array, for `l < 19`, is the total of the block counts of group `h`'s four points.
-/
import proofs.«410929_j54176717472355_1_alg».proof.Proof.KAcc

noncomputable section

namespace Cert.KernelIdeal.FinalValue

open Cert.KernelIdeal Cert.KernelIdeal.Gen Idealize.ShloMosaic Idealize.ShloMosaic.TcCoe Idealize.SL.Sem
open Idealize.ShloMosaic.ValueIdx Cert.Hist
open Idealize.ShloMosaic.Pipeline (Dat)
open Cert.KernelIdeal.AccValue

variable (m : (ℓ : Loc nD τ sig) → Buf (Elt Ideal) ℓ)

/-- The region's result array after the run, at its literal type. -/
abbrev hist (c : Dev nD) : Vec Ideal S2x3x128 .f32 := (dats m 0 c).arrAt 2 cfg0.N

/-! ## The running total at a group's last point -/

/-- At a multiple of four the running total restarts. -/
theorem run4_reset (f : ℕ → EReal) (n : ℕ) (h : n % 4 = 0) : run4 f n = f n := by
  cases n with
  | zero => rfl
  | succ k => exact if_pos h

/-- Elsewhere it grows by the point's term. -/
theorem run4_step (f : ℕ → EReal) (n : ℕ) (h : ¬(n + 1) % 4 = 0) : run4 f (n + 1) = run4 f n + f (n + 1) := if_neg h

/-- So at the last point of group `q` it is the sum of the group's four terms. -/
theorem run4_last (f : ℕ → EReal) (q : ℕ) : run4 f (4 * q + 3) = ∑ s : Fin 4, f (4 * q + s.val) := by
  have e3 : run4 f (4 * q + 3) = run4 f (4 * q + 2) + f (4 * q + 3) := run4_step f (4 * q + 2) (by omega)
  have e2 : run4 f (4 * q + 2) = run4 f (4 * q + 1) + f (4 * q + 2) := run4_step f (4 * q + 1) (by omega)
  have e1 : run4 f (4 * q + 1) = run4 f (4 * q) + f (4 * q + 1) := run4_step f (4 * q) (by omega)
  have e0 : run4 f (4 * q) = f (4 * q) := run4_reset f (4 * q) (by omega)
  rw [e3, e2, e1, e0, Fin.sum_univ_four]
  rfl

/-! ## The result array -/

/-- Where the output window sits at point `t`: its index along the first axis is the point's group `t / 4`, and 0
    along the other two (decided over the eight points). -/
theorem idx2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

theorem lastLt (a : ℕ) (ha : a < 2) : 4 * a + 3 < cfg0.N := by
  have hN : cfg0.N = 8 := N_0
  omega

/-- The array the write-backs assemble: entry `(h, r, l)` is entry `(0, r, l)` of the output block as group `h`'s last
    point, `4h + 3`, leaves it. -/
def G (c : Dev nD) : Vec Ideal S2x3x128 .f32 := fun j =>
  (outsAt0 m c (4 * (j 0).val + 3) (lastLt _ (j 0).isLt)).1
    (ix3 (0 : Fin 1) (⟨(j 1).val, (j 1).isLt⟩ : Fin 3) (⟨(j 2).val, (j 2).isLt⟩ : Fin 128))

/-- Reading `G`: the output block after point `n = 4 (j 0) + 3`, at the entry with `j`'s last two coordinates. -/
theorem G_of (c : Dev nD) (j : S2x3x128.Idx) (n : ℕ) (hn : n < cfg0.N) (e : n = 4 * (j 0).val + 3) (k : S1x3x128.Idx)
    (h1 : (k 1).val = (j 1).val) (h2 : (k 2).val = (j 2).val) : (outsAt0 m c n hn).1 k = G m c j := by
  have hk : k = ix3 (0 : Fin 1) (⟨(j 1).val, (j 1).isLt⟩ : Fin 3) (⟨(j 2).val, (j 2).isLt⟩ : Fin 128) := by
    funext a
    apply Fin.ext
    match a with
    | ⟨0, _⟩ => show (k 0).val = 0; have h : (k 0).val < 1 := (k 0).isLt; omega
    | ⟨1, _⟩ => exact h1
    | ⟨2, _⟩ => exact h2
  subst e
  rw [hk]
  rfl

/-- What a write-back moves is the point's block of `G`: only a group's last point writes back, and its block is
    the group's slice of the array. -/
theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  obtain ⟨i0, i1, i2⟩ := idx2 t
  show (cfg0.win 2).cut (grid0.coords t) ((dats m 0 c).after 2 t) = _
  rw [after0_2]
  funext y
  rw [View.read_apply]
  show (outsAt0 m c t.val t.isLt).1 ((cfg0.win 2).xinj (grid0.coords t) y) = G m c (((cfg0.win 2).blk t).view.emb y)
  have hy0 : (y 0).val < 1 := (y 0).isLt
  refine G_of m c _ t.val t.isLt ?_ _ ?_ ?_
  · show t.val = 4 * (win0_2.index t 0 * 1 + 1 * (y 0).val) + 3
    rw [i0]; omega
  · show (y 1).val = win0_2.index t 1 * 3 + 1 * (y 1).val
    rw [i1]; omega
  · show (y 2).val = win0_2.index t 2 * 128 + 1 * (y 2).val
    rw [i2]; omega

/-- Entry `(h, r, l)` of the array lies in the block that group `h`'s last point writes back. -/
theorem cover (c : Dev nD) (i : S2x3x128.Idx) :
    ∃ t : Fin cfg0.N, (cfg0.win 2).flush t = true ∧ i ∈ ((cfg0.win 2).blk t).view.set := by
  have hi0 : (i 0).val < 2 := (i 0).isLt
  have hi1 : (i 1).val < 3 := (i 1).isLt
  have hi2 : (i 2).val < 128 := (i 2).isLt
  refine ⟨⟨4 * (i 0).val + 3, lastLt _ hi0⟩, (flush0_2 _).mpr (by show (4 * (i 0).val + 3) % 4 = 3; omega), ?_⟩
  obtain ⟨i0, i1, i2⟩ := idx2 ⟨4 * (i 0).val + 3, lastLt _ hi0⟩
  have i0' : win0_2.index ⟨4 * (i 0).val + 3, lastLt _ hi0⟩ 0 = (i 0).val := by
    rw [i0]; show (4 * (i 0).val + 3) / 4 = (i 0).val; omega
  show i ∈ ((View.whole main_v0).slice (win0_2.rect ⟨4 * (i 0).val + 3, lastLt _ hi0⟩)).set
  rw [View.set_slice_whole, Rect.mem_set_unit]
  intro a
  match a with
  | ⟨0, _⟩ =>
    show win0_2.index ⟨4 * (i 0).val + 3, lastLt _ hi0⟩ 0 * 1 ≤ (i 0).val
      ∧ (i 0).val < win0_2.index ⟨4 * (i 0).val + 3, lastLt _ hi0⟩ 0 * 1 + 1
    rw [i0']; omega
  | ⟨1, _⟩ =>
    show win0_2.index ⟨4 * (i 0).val + 3, lastLt _ hi0⟩ 1 * 3 ≤ (i 1).val
      ∧ (i 1).val < win0_2.index ⟨4 * (i 0).val + 3, lastLt _ hi0⟩ 1 * 3 + 3
    rw [i1]; omega
  | ⟨2, _⟩ =>
    show win0_2.index ⟨4 * (i 0).val + 3, lastLt _ hi0⟩ 2 * 128 ≤ (i 2).val
      ∧ (i 2).val < win0_2.index ⟨4 * (i 0).val + 3, lastLt _ hi0⟩ 2 * 128 + 128
    rw [i2]; omega

/-- So the result array ends holding `G`: the two write-backs cover it. -/
theorem hist_eq (c : Dev nD) : hist m c = G m c :=
  (dats m 0 c).arrAt_eq_of_cover 2 (G m c) (flushed_eq m c) (cover c)

/-- Entry `(h, r, l)`, `l < 19`, of the result array: the four block counts of group `h` added up. -/
theorem hist_apply (c : Dev nD) (h : Fin 2) (r : Fin 3) (l : Fin 128) (hl : l.val < 19) :
    hist m c (ix3 h r l) = ∑ s : Fin 4, rc m c r ⟨l.val, hl⟩ (4 * h.val + s.val) := by
  rw [hist_eq]
  show (outsAt0 m c (4 * h.val + 3) (lastLt _ h.isLt)).1 (ix3 (0 : Fin 1) r l) = _
  rw [(outsAt_apply m c r l hl (4 * h.val + 3) (lastLt _ h.isLt)).1]
  exact run4_last _ h.val

end Cert.KernelIdeal.FinalValue

end
-- ==== Proof.KTail.lean ====
/-
  After the region the program adds the two groups' arrays, cuts lanes 0 … 18 out of each of the three rows, and applies
  the closing arithmetic. Lane `i` of row `r` of the sum is the total of all eight block counts, which is the count
  over the whole map (Counts.lean): row 0 the predicted labels' counts, row 1 the true labels', row 2 the agreements'.
  So the program's result is the Dice loss of the three count vectors, and its argument arrays are left as they were.
-/
import proofs.«410929_j54176717472355_1_alg».proof.Proof.KFinal
import proofs.«410929_j54176717472355_1_alg».proof.Proof.Tail
import Idealize.ShloMosaic.Lib.StableHlo.Run
import Idealize.ShloMosaic.Lib.Pipeline.Value
import Idealize.ShloMosaic.PureOps.Ideal.Laws

noncomputable section

namespace Cert.KernelIdeal.TailValue

open Cert.KernelIdeal Cert.KernelIdeal.Gen Idealize.ShloMosaic Idealize.ShloMosaic.TcCoe Idealize.SL.Sem
open Idealize.ShloMosaic.ValueIdx Cert.Hist
open Idealize.ShloMosaic.Pipeline (Dat)
open Cert.KernelIdeal.AccValue Cert.KernelIdeal.FinalValue

variable (m : (ℓ : Loc nD τ sig) → Buf (Elt Ideal) ℓ) (ρ : Dev nD → PrngReg)

/-- The program's result, as a function of the two label maps: the Dice loss of their three count vectors. -/
abbrev result (c : Dev nD) : FVec Ideal S_ .f32 :=
  Cert.DiceTail.loss bcast_S_S19 reducesTo_S19_S_d0 h_S_ (cntV (yarr m c)) (cntV (parr m c)) (agrV (parr m c) (yarr m c))

/-! ## The operations after the region, as a function of the region's result array -/

/-- Row `o 0` of the two groups' arrays added up, cut to lanes 0 … 18: the sum over the group axis, the slice
    `[o 0, o 0 + 1) × [o 1, o 1 + 19)` of it, flattened to a vector over the 19 classes. -/
def rowV (H : FVec Ideal S2x3x128 .f32) (o : Fin 2 → ℕ) (hs : S3x128.Slices o S1x19) : FVec Ideal S19 .f32 :=
  shapeCast S19 (extractStridedSlice S1x19 o
    (Host.reduceAdd H (constant (F := Ideal) S_ .f32 0x00000000#32) reducesTo_S2x3x128_S3x128_d0 h_S_) hs) shapeCasts_S1x19_S19

/-- Everything after the region: the closing arithmetic on rows 1, 0 and 2 of the summed array. -/
def tailOf (H : FVec Ideal S2x3x128 .f32) : FVec Ideal S_ .f32 :=
  Cert.DiceTail.loss bcast_S_S19 reducesTo_S19_S_d0 h_S_
    (rowV H ![1, 0] slices_S3x128_S1x19_1_0) (rowV H ![0, 0] slices_S3x128_S1x19_0_0) (rowV H ![2, 0] slices_S3x128_S1x19_2_0)

/-- The result buffer is no array of the pipeline and is not scoped, so it is among the buffers that bypass the region. -/
theorem mem_v19 : main_v19 ∈ Pipeline.restRefs sig (cfgs (0 : Fin 1)).spec :=
  Pipeline.mem_restRefs_of main_v19 (by decide) (by decide)

/-- What the lines after the region leave in the result buffer: `tailOf` of the region's result array. Each line's
    result is its function of its operands' contents; the first operand is the result array as the region left it. -/
theorem tail_val (c : Dev nD) :
    Pipeline.afterTail₀ cfgs (dats m) 0 (V0 m) [hostOps1] c main_v19 = tailOf (hist m c) := by
  unfold Pipeline.afterTail₀
  show StableHlo.after hostOps1 _ (Proc.devRef .tc main_v19) = _
  after_results
  exact congrArg tailOf (Pipeline.withArrays_arr spec0 launch0.win.arr_inj c _ _ 2)

/-! ## The rows of the summed array, read at a class -/

theorem reduces_d0 : S2x3x128.Reduces [0] S3x128 := by decide

/-- The two groups' arrays added up, read at row `r`, lane `l`: the initial value is zero, the sum has two terms. -/
theorem hostSum_apply (H : FVec Ideal S2x3x128 .f32) (r : Fin 3) (l : Fin 128) :
    Host.reduceAdd H (constant (F := Ideal) S_ .f32 0x00000000#32) reducesTo_S2x3x128_S3x128_d0 h_S_ (ix2 r l)
      = H (ix3 0 r l) + H (ix3 1 r l) := by
  refine (Ideal.hostReduceAdd_single reducesTo_S2x3x128_S3x128_d0 reduces_d0 H _ (ix2 r l)).trans ?_
  rw [constant_apply, Ideal.ofBits_zero_f32, zero_add]
  refine (Fin.sum_univ_two _).trans ?_
  have e0 : reduces_d0.lift (ix2 r l) (0 : Fin 2) = ix3 (0 : Fin 2) r l := by
    funext a; apply Fin.ext
    match a with
    | ⟨0, _⟩ => rfl
    | ⟨1, _⟩ => rfl
    | ⟨2, _⟩ => rfl
  have e1 : reduces_d0.lift (ix2 r l) (1 : Fin 2) = ix3 (1 : Fin 2) r l := by
    funext a; apply Fin.ext
    match a with
    | ⟨0, _⟩ => rfl
    | ⟨1, _⟩ => rfl
    | ⟨2, _⟩ => rfl
  exact congrArg₂ (· + ·) (congrArg H e0) (congrArg H e1)

/-- Class `i` of row `r` of the cut: the two groups' entries at `(r, i)` added. The flattening keeps the row-major
    position (`0 · 19 + i = i`), the slice shifts the row by `r` and the lane by nothing. -/
theorem rowV_apply (H : FVec Ideal S2x3x128 .f32) (r : Fin 3) (hs : S3x128.Slices ![r.val, 0] S1x19) (i : Fin 19) :
    rowV H ![r.val, 0] hs (ix1 i)
      = H (ix3 0 r ⟨i.val, by have := i.isLt; omega⟩) + H (ix3 1 r ⟨i.val, by have := i.isLt; omega⟩) := by
  unfold rowV
  refine (shapeCast_apply _ shapeCasts_S1x19_S19 (ix1 i) (ix2 (0 : Fin 1) i) ?_).trans ?_
  · rw [Shape.rowMajor_val_two, Shape.rowMajor_val_one]
    show (0 : ℕ) * 19 + i.val = i.val
    omega
  refine (extractStridedSlice_apply _ _ hs (ix2 (0 : Fin 1) i) (ix2 r ⟨i.val, by have := i.isLt; omega⟩) (fun a => ?_)).trans ?_
  · match a with
    | ⟨0, _⟩ => show r.val = r.val + 0; omega
    | ⟨1, _⟩ => show i.val = 0 + i.val; omega
  exact hostSum_apply H r _

/-! ## From the groups' totals to the counts over the whole map -/

/-- The totals of the two groups of four, added, are the total over all eight. -/
theorem sum_two_groups (f : ℕ → EReal) :
    (∑ s : Fin 4, f (4 * (0 : Fin 2).val + s.val)) + ∑ s : Fin 4, f (4 * (1 : Fin 2).val + s.val) = ∑ k : Fin 8, f k.val := by
  rw [Fin.sum_univ_four, Fin.sum_univ_four, Fin.sum_univ_eight]
  show (f 0 + f 1 + f 2 + f 3) + (f 4 + f 5 + f 6 + f 7) = f 0 + f 1 + f 2 + f 3 + f 4 + f 5 + f 6 + f 7
  simp only [add_assoc]

/-- Block `k`'s contribution, for `k` one of the eight blocks. -/
theorem rc_fin (c : Dev nD) (r : Fin 3) (i : Fin 19) (k : Fin 8) :
    rc m c r i k.val = rowCnt r (blockOf (parr m c) k) (blockOf (yarr m c) k) i := by
  unfold rc
  exact dif_pos k.isLt

/-- Class `i` of row `r` of the cut of the region's result array: the eight block counts of row `r` added up. -/
theorem rowV_hist (c : Dev nD) (r : Fin 3) (hs : S3x128.Slices ![r.val, 0] S1x19) (i : Fin 19) :
    rowV (hist m c) ![r.val, 0] hs (ix1 i) = ∑ k : Fin 8, rowCnt r (blockOf (parr m c) k) (blockOf (yarr m c) k) i := by
  refine (rowV_apply (hist m c) r hs i).trans ?_
  rw [hist_apply m c 0 r ⟨i.val, by have := i.isLt; omega⟩ i.isLt, hist_apply m c 1 r ⟨i.val, by have := i.isLt; omega⟩ i.isLt]
  refine (sum_two_groups (rc m c r i)).trans ?_
  exact Finset.sum_congr rfl fun k _ => rc_fin m c r i k

/-- Row 0 of the cut holds the predicted labels' counts, -/
theorem row0_eq (c : Dev nD) : rowV (hist m c) ![0, 0] slices_S3x128_S1x19_0_0 = cntV (parr m c) := by
  funext j
  obtain ⟨i, rfl⟩ : ∃ i : Fin 19, j = ix1 i := ⟨j 0, eq_ix1 j⟩
  refine (rowV_hist m c 0 slices_S3x128_S1x19_0_0 i).trans ?_
  exact (cnt_eq_blocks (parr m c) i).symm

/-- row 1 the true labels' counts, -/
theorem row1_eq (c : Dev nD) : rowV (hist m c) ![1, 0] slices_S3x128_S1x19_1_0 = cntV (yarr m c) := by
  funext j
  obtain ⟨i, rfl⟩ : ∃ i : Fin 19, j = ix1 i := ⟨j 0, eq_ix1 j⟩
  refine (rowV_hist m c 1 slices_S3x128_S1x19_1_0 i).trans ?_
  exact (cnt_eq_blocks (yarr m c) i).symm

/-- and row 2 the agreements' counts. -/
theorem row2_eq (c : Dev nD) : rowV (hist m c) ![2, 0] slices_S3x128_S1x19_2_0 = agrV (parr m c) (yarr m c) := by
  funext j
  obtain ⟨i, rfl⟩ : ∃ i : Fin 19, j = ix1 i := ⟨j 0, eq_ix1 j⟩
  refine (rowV_hist m c 2 slices_S3x128_S1x19_2_0 i).trans ?_
  exact (agr_eq_blocks (parr m c) (yarr m c) i).symm

/-- So the lines after the region compute the Dice loss of the three count vectors. -/
theorem tailOf_hist (c : Dev nD) : tailOf (hist m c) = result m c := by
  unfold tailOf
  rw [row0_eq, row1_eq, row2_eq]

/-- Every weakly fair execution of the idealized kernel program terminates with its result at the Dice loss of the
    count vectors and its two argument arrays unchanged. -/
theorem run : θ_run (defs (F := Ideal)) (onTc (τ := τ) (main (F := Ideal))) ⟨m, fun _ => 0, ρ⟩ (fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v19 mem_v19).trans ((tail_val m c).trans (tailOf_hist m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.TailValue

end
-- ==== Proof.lean ====
/-
  Two programs compute the multi-class Dice loss of two label maps of 16·1024·1024 entries over 19 classes: one minus the
  mean, over the classes, of (2·agreements + ε) / (true count + predicted count − agreements + ε). The kernel streams the
  maps in eight blocks, counts each class in each block by comparing with the class number and summing indicators, and
  accumulates the counts lane by lane; the reference builds the three histograms by scatter-add over the flattened maps,
  clipping labels at zero from below. On maps with no negative label — the precondition — each histogram bin is the count
  of positions carrying its class, on both sides, in the extended reals where the order of a sum of zeros and ones does
  not matter; the closing arithmetic is the same function of the three count vectors in both programs. A negative label
  is counted in bin 0 by the reference's clip and in no bin by the kernel, which is why the precondition is needed; a
  label of 19 or more is dropped by both.
-/
import proofs.«410929_j54176717472355_1_alg».proof.Defs
import proofs.«410929_j54176717472355_1_alg».proof.Proof.Gen.Kernel
import proofs.«410929_j54176717472355_1_alg».proof.Proof.Gen.Kernel.Skeleton
import proofs.«410929_j54176717472355_1_alg».proof.Proof.Gen.Kernel.Launch
import proofs.«410929_j54176717472355_1_alg».proof.Proof.Gen.Kernel.Points
import proofs.«410929_j54176717472355_1_alg».proof.Proof.Gen.Kernel.Frame
import proofs.«410929_j54176717472355_1_alg».proof.Proof.Gen.KernelIdeal
import proofs.«410929_j54176717472355_1_alg».proof.Proof.Gen.KernelIdeal.Skeleton
import proofs.«410929_j54176717472355_1_alg».proof.Proof.Gen.KernelIdeal.Launch
import proofs.«410929_j54176717472355_1_alg».proof.Proof.Gen.KernelIdeal.Points
import proofs.«410929_j54176717472355_1_alg».proof.Proof.Gen.KernelIdeal.Frame
import proofs.«410929_j54176717472355_1_alg».proof.Proof.Gen.ReferenceIdeal
import proofs.«410929_j54176717472355_1_alg».proof.Proof.Gen.Pre_any_inputs
import proofs.«410929_j54176717472355_1_alg».proof.Proof.Gen.ReferenceIdeal.Run
import proofs.«410929_j54176717472355_1_alg».proof.Proof.Gen.ReferenceIdeal.Read
import proofs.«410929_j54176717472355_1_alg».proof.Proof.PreFacts
import proofs.«410929_j54176717472355_1_alg».proof.Proof.RefValue
import proofs.«410929_j54176717472355_1_alg».proof.Proof.KTail
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end at the Dice loss of the same three count vectors: the kernel's on any input, the reference's where no
    label is negative, which the precondition says of the kernel's arrays and the agreement carries to the reference's. -/
theorem algebraic : Cert.algebraic_KernelIdeal_ReferenceIdeal := by
  intro m ρ m' ρ' hpre hagree
  refine ⟨fun c => Cert.KernelIdeal.TailValue.result m c, Cert.KernelIdeal.TailValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2]
  obtain ⟨hP, hY⟩ := Cert.Hist.nonneg_of_pre (F := Ideal) _ _ (hpre c)
  exact Cert.ReferenceIdeal.RefValue.result_eq _ _ hP hY

theorem claim : Cert.Claim := ⟨Cert.Kernel.Gen.facts, Cert.KernelIdeal.Gen.facts, Cert.ReferenceIdeal.Gen.facts, Cert.Pre_any_inputs.Gen.facts,
  frame_k, frame_ki, frame_ri, trivial, algebraic⟩

end Cert.Proof

end
